-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Kernel.lean ====
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S1024x2048 : Shape := ⟨2, ![1024, 2048]⟩
abbrev S512x2048 : Shape := ⟨2, ![512, 2048]⟩
abbrev S1024x1 : Shape := ⟨2, ![1024, 1]⟩
abbrev S1x512 : Shape := ⟨2, ![1, 512]⟩
abbrev S2048x512 : Shape := ⟨2, ![2048, 512]⟩
abbrev S1024x512 : Shape := ⟨2, ![1024, 512]⟩
abbrev S1024 : Shape := ⟨1, ![1024]⟩

abbrev nBuf : Space → Nat
  | .hbm => 31
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x1, .i32⟩
  | .hbm, ⟨8, _⟩ => ⟨S1x4096, .i32⟩
  | .hbm, ⟨9, _⟩ => ⟨S4096x2048, .bf16⟩
  | .hbm, ⟨10, _⟩ => ⟨S4096x1, .f32⟩
  | .hbm, ⟨11, _⟩ => ⟨S4096x1, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .i1⟩
  | .hbm, ⟨26, _⟩ => ⟨S4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1024x1, .i32⟩
  | .local _ .vmem, ⟨9, _⟩ => ⟨S1024x1, .i32⟩
  | .local _ .vmem, ⟨10, _⟩ => ⟨S1x512, .i32⟩
  | .local _ .vmem, ⟨11, _⟩ => ⟨S1x512, .i32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_26 : BitVec 32 := 0#32
  let v49 : BitVec 1 := Scalar.cmpi .ne v48 c0_i32_26
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  reducesTo_S4096x2048_S4096_d1 : S4096x2048.ReducesTo [1] S4096
  h_S_ : 0 < S_.numel
  shapeCasts_S4096_S4096x1 : S4096.ShapeCasts S4096x1
  shapeCasts_S4096_S1x4096 : S4096.ShapeCasts S1x4096
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  transposes_S512x2048_p1_0_S2048x512 : S512x2048.Transposes [1, 0] S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  reduces_S1024x512_S1024 : S1024x512.Reduces [1] S1024
  shapeCasts_S1024_S1024x1 : S1024.ShapeCasts S1024x1
  shapeCasts_S4096x1_S4096 : S4096x1.ShapeCasts S4096
  bcast_S_S4096 : S_.BroadcastsInDim S4096 (![] : Fin 0 → Fin S4096.rank)
  reducesTo_S4096_S_d0 : S4096.ReducesTo [0] S_
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .i32 = 32 ∨ (Rect.block (s := S4096x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .i32 = 32 ∨ (Rect.block (s := S1x4096) S1x512.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S4096x1.size a
  hwx0_6 : ∀ i : grid0.Coords, EltTy.bits .f32 = 32 ∨ (Rect.block (s := S4096x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S4096x1.size a
  hwx0_7 : ∀ i : grid0.Coords, EltTy.bits .f32 = 32 ∨ (Rect.block (s := S4096x1) S1024x1.size (cc0_transform_7 i) (hinb0_7 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v6) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2048x4096 : Shape := ⟨2, ![2048, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S2048x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x1, .i32⟩
  | .hbm, ⟨22, _⟩ => ⟨S1x4096, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .i1⟩
  | .hbm, ⟨48, _⟩ => ⟨S4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call1_v0 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_call2_v0 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_cst_11 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x2048_S2048x4096_1_0 : S4096x2048.Transposes [1, 0] S2048x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.KI.Defs.lean ====
/-
  What the body's runs and the pipeline's proof data are stated over: the two conditions the body branches on, read off
  the grid coordinates and decided over the grid; where the two outputs are idle; and the two accumulator updates.
-/
import proofs.«178719_j88089779241009_1_alg».proof.Proof.Gen.KernelIdeal.Skeleton
import proofs.«178719_j88089779241009_1_alg».proof.Proof.Gen.KernelIdeal.Launch
import proofs.«178719_j88089779241009_1_alg».proof.Proof.Gen.KernelIdeal.Points
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- The first conditional's condition, from the grid coordinates: the column tile is the first. -/
abbrev cond0 (i : grid0.Coords) : Prop := (Scalar.cmpi .ne (Scalar.extui (Scalar.cmpi .eq (BitVec.ofNat 32 (i 1).val) 0#32)) 0#32) = 1#1
/-- The second conditional's condition: the column tile is the last. -/
abbrev cond1 (i : grid0.Coords) : Prop := k0_cond2 i = 1#1

/-- The running maximum after a point: the point's lane maximum of the masked distances folded into `s`. -/
def accMax (x0 : Vec F S1024x2048 .bf16) (x1 : Vec F S512x2048 .bf16) (x2 : Vec F S1024x1 .f32) (x3 : Vec F S1x512 .f32) (x4 : Vec F S1024x1 .i32) (x5 : Vec F S1x512 .i32) (s : Vec F S1024x1 .f32) : Vec F S1024x1 .f32 :=
  k0_pay1 (k0_pay7 x0 x1 x2 x3 x4 x5) s
/-- The running minimum after a point: the point's lane minimum of the masked distances folded into `s`. -/
def accMin (x0 : Vec F S1024x2048 .bf16) (x1 : Vec F S512x2048 .bf16) (x2 : Vec F S1024x1 .f32) (x3 : Vec F S1x512 .f32) (x4 : Vec F S1024x1 .i32) (x5 : Vec F S1x512 .i32) (s : Vec F S1024x1 .f32) : Vec F S1024x1 .f32 :=
  k0_pay2 (k0_pay8 x0 x1 x2 x3 x4 x5) s

/-- The first condition holds at the points ≡ 0 (mod 8): the first column tile of each row tile. -/
theorem hcond0 : ∀ t : Fin cfg0.N, cond0 (grid0.coords t) ↔ t.val % 8 = 0 :=
  (by decide +kernel : ∀ t : Fin grid0.N, cond0 (grid0.coords t) ↔ t.val % 8 = 0)
/-- The second condition holds at the points ≡ 7 (mod 8): the last column tile of each row tile. -/
theorem hcond1 : ∀ t : Fin cfg0.N, cond1 (grid0.coords t) ↔ t.val % 8 = 7 :=
  (by decide +kernel : ∀ t : Fin grid0.N, cond1 (grid0.coords t) ↔ t.val % 8 = 7)

/-- The inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- Away from the last column tile both outputs are idle and not written back; at it they are live. -/
theorem idle6 : ∀ t : Fin cfg0.N, ¬cond1 (grid0.coords t) → cfg0.idle 6 (grid0.coords t) = true := by decide +kernel
theorem idle7 : ∀ t : Fin cfg0.N, ¬cond1 (grid0.coords t) → cfg0.idle 7 (grid0.coords t) = true := by decide +kernel
theorem noFlush6 : ∀ t : Fin cfg0.N, ¬cond1 (grid0.coords t) → (cfg0.win 6).flush t = false := by decide +kernel
theorem noFlush7 : ∀ t : Fin cfg0.N, ¬cond1 (grid0.coords t) → (cfg0.win 7).flush t = false := by decide +kernel
theorem live6 : ∀ t : Fin cfg0.N, cond1 (grid0.coords t) → cfg0.idle 6 (grid0.coords t) = false := by decide +kernel
theorem live7 : ∀ t : Fin cfg0.N, cond1 (grid0.coords t) → cfg0.idle 7 (grid0.coords t) = false := by decide +kernel

end Cert.KernelIdeal.Hand

end
-- ==== Proof.KI.Dats.lean ====
/-
  The pipeline's proof data.

  The region finds the arrays as the eight host operations before it leave them (`V`). After the body at a point every
  input's staging buffer still holds its block of its array. The two scratch accumulators hold, after point `n`, the
  fold of the point's lane maximum / minimum into what point `n − 1` left, restarted from the neutral words at the first
  column tile of each row tile (`scr`); at the last column tile of a row tile that is also what the two outputs' buffers
  hold, and what is written back. The matrix is handed to two windows at once, so each holds one half of it.
-/
import proofs.«178719_j88089779241009_1_alg».proof.Proof.KI.Defs
import Idealize.ShloMosaic.Lib.Pipeline.FrameBody
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, as a valuation; -/
abbrev V₀ (c : Dev nD) : Valuation τ sig (Elt F) := fun b => m (c, b)
/-- after the eight host operations before the region; -/
abbrev V0 (c : Dev nD) : Valuation τ sig (Elt F) := StableHlo.after hostOps0 (V₀ m c)
/-- read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The six input blocks at a point, at their literal types. -/
abbrev xb0 (c : Dev nD) (t : Fin cfg0.N) : Vec F S1024x2048 .bf16 := iblk m c 0 t
abbrev xb1 (c : Dev nD) (t : Fin cfg0.N) : Vec F S512x2048 .bf16 := iblk m c 1 t
abbrev xb2 (c : Dev nD) (t : Fin cfg0.N) : Vec F S1024x1 .f32 := iblk m c 2 t
abbrev xb3 (c : Dev nD) (t : Fin cfg0.N) : Vec F S1x512 .f32 := iblk m c 3 t
abbrev xb4 (c : Dev nD) (t : Fin cfg0.N) : Vec F S1024x1 .i32 := iblk m c 4 t
abbrev xb5 (c : Dev nD) (t : Fin cfg0.N) : Vec F S1x512 .i32 := iblk m c 5 t

/-! ## The accumulators point by point -/

/-- The point's update of the two accumulators over `(s0, s1)`. -/
def step (c : Dev nD) (t : Fin cfg0.N) (s : Vec F S1024x1 .f32 × Vec F S1024x1 .f32) : Vec F S1024x1 .f32 × Vec F S1024x1 .f32 :=
  (accMax (xb0 m c t) (xb1 m c t) (xb2 m c t) (xb3 m c t) (xb4 m c t) (xb5 m c t) s.1,
   accMin (xb0 m c t) (xb1 m c t) (xb2 m c t) (xb3 m c t) (xb4 m c t) (xb5 m c t) s.2)

/-- What the two accumulators hold after the body at position `n`: the update over the neutral words at the first
    column tile of a row tile, over what position `n − 1` left elsewhere. -/
def scr (c : Dev nD) : (n : ℕ) → n < cfg0.N → Vec F S1024x1 .f32 × Vec F S1024x1 .f32
  | 0, hn => step m c ⟨0, hn⟩ (k0_pay3 (F := F), k0_pay4 (F := F))
  | n + 1, hn =>
    if (n + 1) % 8 = 0 then step m c ⟨n + 1, hn⟩ (k0_pay3 (F := F), k0_pay4 (F := F))
    else step m c ⟨n + 1, hn⟩ (scr c n (Nat.lt_of_succ_lt hn))

/-- At a first column tile: the update over the neutral words. -/
theorem scr_first (c : Dev nD) (t : Fin cfg0.N) (h : t.val % 8 = 0) :
    scr m c t.val t.isLt = step m c t (k0_pay3 (F := F), k0_pay4 (F := F)) := by
  obtain ⟨n, hn⟩ := t
  cases n with
  | zero => rfl
  | succ n => exact if_pos h

/-- Elsewhere: the update over what the point before left. -/
theorem scr_next (c : Dev nD) (t : Fin cfg0.N) (h : ¬t.val % 8 = 0) :
    scr m c t.val t.isLt = step m c t (scr m c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The two scratch accumulators, whole buffers of the kernel's own. -/
abbrev scM0 : Memref sig .tc .vmem S1024x1 .f32 := Memref.whole cc0_scratch0
abbrev scM1 : Memref sig .tc .vmem S1024x1 .f32 := Memref.whole cc0_scratch1

/-- Before the first point the accumulators hold anything; before position `n + 1` what position `n` left. -/
def PhiS (c : Dev nD) : (n : ℕ) → n ≤ cfg0.N → sProp 𝕄
  | 0, _ => iprop((∃ d, owns (c : Thread nD τ) scM0 fullShare d) ∗ (∃ d, owns (c : Thread nD τ) scM1 fullShare d))
  | n + 1, hn => iprop(owns (c : Thread nD τ) scM0 fullShare (scr m c n hn).1 ∗ owns (c : Thread nD τ) scM1 fullShare (scr m c n hn).2)

theorem PhiS_zero (c : Dev nD) (n : ℕ) (h : n ≤ cfg0.N) (hz : n = 0) :
    PhiS m c n h = iprop((∃ d, owns (c : Thread nD τ) scM0 fullShare d) ∗ (∃ d, owns (c : Thread nD τ) scM1 fullShare d)) := by
  subst hz; rfl

theorem PhiS_succ (c : Dev nD) (n : ℕ) (hn : n < cfg0.N) :
    PhiS m c (n + 1) hn = iprop(owns (c : Thread nD τ) scM0 fullShare (scr m c n hn).1 ∗ owns (c : Thread nD τ) scM1 fullShare (scr m c n hn).2) := rfl

theorem PhiS_pos (c : Dev nD) (n : ℕ) (h : n ≤ cfg0.N) (hz : n ≠ 0) :
    PhiS m c n h = iprop(owns (c : Thread nD τ) scM0 fullShare (scr m c (n - 1) (by omega)).1 ∗ owns (c : Thread nD τ) scM1 fullShare (scr m c (n - 1) (by omega)).2) := by
  cases n with
  | zero => exact absurd rfl hz
  | succ n => rfl

/-! ## The proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (scr m c t.val t.isLt).1
    | ⟨7, _⟩ => (scr m c t.val t.isLt).2
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem Phi_succ (c : Dev nD) (t : Fin cfg0.N) :
    (dats m 0 c).Φ t.succ = PhiS m c (t.val + 1) t.isLt := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (scr m c t.val t.isLt).1 := by dsimp only [dats]
theorem after7 (c : Dev nD) (t : Fin cfg0.N) : (dats m 0 c).after 7 t = (scr m c t.val t.isLt).2 := by dsimp only [dats]

/-- An input's current staging buffer holds its block at every point, fetched there or not: unfetched, its block
    index has not moved since the fetch. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
      (fun t => by rw [after5]; unfold Dat.blockOf iblk; rw [A_eq]; try rfl) t d).trans
    (by unfold Dat.fetched Dat.blockOf iblk; rw [A_eq]; try rfl)

end Cert.KernelIdeal.Hand

end
-- ==== Proof.KI.Body.lean ====
/-
  The kernel body run whole, on any staging memrefs, in each of the three cases its two conditionals meet on the grid.

  With the six input blocks `x0 … x5` in their buffers, the body folds this point's lane maximum and lane minimum of the
  masked distances into the two scratch accumulators: at the first column tile over the neutral words it has just
  stored there, afterwards over what the accumulators held; at the last column tile it also copies both accumulators
  into the two output buffers. The inputs' buffers are left as they were, and an output the case does not store into is
  left as it was.
-/
import proofs.«178719_j88089779241009_1_alg».proof.Proof.KI.Defs
import proofs.«178719_j88089779241009_1_alg».proof.Proof.Gen.KernelIdeal.Skeleton
import proofs.«178719_j88089779241009_1_alg».proof.Proof.Gen.KernelIdeal.Launch
import proofs.«178719_j88089779241009_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-block loads and stores of a whole buffer

Every load and store of the body moves a whole block: the rectangle at zero offsets of the buffer's own sizes. Through
it a load reads the buffer's contents, and a store, made last, leaves its payload whatever was there before. -/

section Whole

variable {sig' : RefSig} {κ' : Kind} {sp' : Space} {S : Shape} {e : EltTy} {Val : EltTy → Type}

/-- The offsets of a whole block of rank two vanish on both axes. -/
theorem off2_zero : (![0, 0] : Fin 2 → ℕ) = fun _ => 0 := by
  funext a
  match a with
  | ⟨0, _⟩ => rfl
  | ⟨1, _⟩ => rfl

/-- A whole-block store made last leaves its payload: the earlier stores and the prior contents do not matter. -/
theorem read_writes_whole (v : View sig' κ' sp' S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A whole-block load of a whole buffer reads the buffer's contents. -/
theorem readAt_whole (m : Memref sig' κ' sp' S e) (hm : m.IsWhole) {off : Fin S.rank → ℕ} (h : off = fun _ => 0)
    (inb : ∀ a, off a + S.size a ≤ S.size a) (X : S.Idx → Val e) :
    m.view.readAt Val (Rect.unit off S.size inb).toLoadRect (hm.unread X) = X := by
  rw [View.readAt_eq_ld, hm.read_unread, View.ld_unit_zero h]

end Whole

/-! ## The payloads over the loaded blocks -/

/-- The point's lane maximum, computed from the six whole-block loads, is the one computed from the blocks' contents. -/
theorem pay7_reads (arg2 : Memref sig .tc .vmem S1024x2048 .bf16) (harg2 : arg2.IsWhole) (arg3 : Memref sig .tc .vmem S512x2048 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole)
    (x0 : Vec F S1024x2048 .bf16) (x1 : Vec F S512x2048 .bf16) (x2 : Vec F S1024x1 .f32) (x3 : Vec F S1x512 .f32) (x4 : Vec F S1024x1 .i32) (x5 : Vec F S1x512 .i32) :
    k0_pay7 (View.readAt (Elt F) arg2.view (Rect.unit ![0, 0] S1024x2048.size inb_S1024x2048_S1024x2048_0_0).toLoadRect (harg2.unread x0))
        (View.readAt (Elt F) arg3.view (Rect.unit ![0, 0] S512x2048.size inb_S512x2048_S512x2048_0_0).toLoadRect (harg3.unread x1))
        (View.readAt (Elt F) arg4.view (Rect.unit ![0, 0] S1024x1.size inb_S1024x1_S1024x1_0_0).toLoadRect (harg4.unread x2))
        (View.readAt (Elt F) arg5.view (Rect.unit ![0, 0] S1x512.size inb_S1x512_S1x512_0_0).toLoadRect (harg5.unread x3))
        (View.readAt (Elt F) arg6.view (Rect.unit ![0, 0] S1024x1.size inb_S1024x1_S1024x1_0_0).toLoadRect (harg6.unread x4))
        (View.readAt (Elt F) arg7.view (Rect.unit ![0, 0] S1x512.size inb_S1x512_S1x512_0_0).toLoadRect (harg7.unread x5))
      = k0_pay7 x0 x1 x2 x3 x4 x5 := by
  rw [readAt_whole arg2 harg2 off2_zero, readAt_whole arg3 harg3 off2_zero, readAt_whole arg4 harg4 off2_zero,
    readAt_whole arg5 harg5 off2_zero, readAt_whole arg6 harg6 off2_zero, readAt_whole arg7 harg7 off2_zero]

/-- The point's lane minimum likewise. -/
theorem pay8_reads (arg2 : Memref sig .tc .vmem S1024x2048 .bf16) (harg2 : arg2.IsWhole) (arg3 : Memref sig .tc .vmem S512x2048 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole)
    (x0 : Vec F S1024x2048 .bf16) (x1 : Vec F S512x2048 .bf16) (x2 : Vec F S1024x1 .f32) (x3 : Vec F S1x512 .f32) (x4 : Vec F S1024x1 .i32) (x5 : Vec F S1x512 .i32) :
    k0_pay8 (View.readAt (Elt F) arg2.view (Rect.unit ![0, 0] S1024x2048.size inb_S1024x2048_S1024x2048_0_0).toLoadRect (harg2.unread x0))
        (View.readAt (Elt F) arg3.view (Rect.unit ![0, 0] S512x2048.size inb_S512x2048_S512x2048_0_0).toLoadRect (harg3.unread x1))
        (View.readAt (Elt F) arg4.view (Rect.unit ![0, 0] S1024x1.size inb_S1024x1_S1024x1_0_0).toLoadRect (harg4.unread x2))
        (View.readAt (Elt F) arg5.view (Rect.unit ![0, 0] S1x512.size inb_S1x512_S1x512_0_0).toLoadRect (harg5.unread x3))
        (View.readAt (Elt F) arg6.view (Rect.unit ![0, 0] S1024x1.size inb_S1024x1_S1024x1_0_0).toLoadRect (harg6.unread x4))
        (View.readAt (Elt F) arg7.view (Rect.unit ![0, 0] S1x512.size inb_S1x512_S1x512_0_0).toLoadRect (harg7.unread x5))
      = k0_pay8 x0 x1 x2 x3 x4 x5 := by
  rw [readAt_whole arg2 harg2 off2_zero, readAt_whole arg3 harg3 off2_zero, readAt_whole arg4 harg4 off2_zero,
    readAt_whole arg5 harg5 off2_zero, readAt_whole arg6 harg6 off2_zero, readAt_whole arg7 harg7 off2_zero]

/-- First column tile (and not the last): the accumulators, whatever they held, end at the fold over the neutral words;
    the outputs' buffers are untouched. -/
theorem run_first (c : Dev nD) (i : grid0.Coords) (arg2 : Memref sig .tc .vmem S1024x2048 .bf16) (harg2 : arg2.IsWhole) (arg3 : Memref sig .tc .vmem S512x2048 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (h0 : cond0 i) (h1 : ¬cond1 i) (x0 : Vec F S1024x2048 .bf16) (x1 : Vec F S512x2048 .bf16) (x2 : Vec F S1024x1 .f32) (x3 : Vec F S1x512 .f32) (x4 : Vec F S1024x1 .i32) (x5 : Vec F S1x512 .i32) (o6 o7 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare o6 ∗ owns (c : Thread nD τ) arg9 fullShare o7
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare o6 ∗ owns (c : Thread nD τ) arg9 fullShare o7
            ∗ owns (c : Thread nD τ) arg10 fullShare (accMax x0 x1 x2 x3 x4 x5 (k0_pay3 (F := F)))
            ∗ owns (c : Thread nD τ) arg11 fullShare (accMin x0 x1 x2 x3 x4 x5 (k0_pay4 (F := F)))) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K := by
  simp only [cc0__triplet_kernel_eq_skeleton]; unfold cc0__triplet_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hf7
  sl_exec (disch := first | exact h0 | exact h1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap
    · iexact H8
    ipureintro
    rw [read_writes_whole (S := S1024x1) _ _ off2_zero]
    sl_unfold_run_names
    dsimp only
    rw [pay7_reads arg2 harg2 arg3 harg3 arg4 harg4 arg5 harg5 arg6 harg6 arg7 harg7 x0 x1 x2 x3 x4 x5, View.readCov_unit_zero (S := S1024x1) _ off2_zero]
    rfl
  · iexists _; isplitr; swap
    · iexact H9
    ipureintro
    rw [read_writes_whole (S := S1024x1) _ _ off2_zero]
    sl_unfold_run_names
    dsimp only
    rw [pay8_reads arg2 harg2 arg3 harg3 arg4 harg4 arg5 harg5 arg6 harg6 arg7 harg7 x0 x1 x2 x3 x4 x5, View.readCov_unit_zero (S := S1024x1) _ off2_zero]
    rfl

/-- A column tile that is neither the first nor the last: the accumulators end at the fold over what they held;
    the outputs' buffers are untouched. -/
theorem run_mid (c : Dev nD) (i : grid0.Coords) (arg2 : Memref sig .tc .vmem S1024x2048 .bf16) (harg2 : arg2.IsWhole) (arg3 : Memref sig .tc .vmem S512x2048 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (h0 : ¬cond0 i) (h1 : ¬cond1 i) (x0 : Vec F S1024x2048 .bf16) (x1 : Vec F S512x2048 .bf16) (x2 : Vec F S1024x1 .f32) (x3 : Vec F S1x512 .f32) (x4 : Vec F S1024x1 .i32) (x5 : Vec F S1x512 .i32) (o6 o7 s0 s1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare o6 ∗ owns (c : Thread nD τ) arg9 fullShare o7
        ∗ owns (c : Thread nD τ) arg10 fullShare s0 ∗ owns (c : Thread nD τ) arg11 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare o6 ∗ owns (c : Thread nD τ) arg9 fullShare o7
            ∗ owns (c : Thread nD τ) arg10 fullShare (accMax x0 x1 x2 x3 x4 x5 s0)
            ∗ owns (c : Thread nD τ) arg11 fullShare (accMin x0 x1 x2 x3 x4 x5 s1)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K := by
  simp only [cc0__triplet_kernel_eq_skeleton]; unfold cc0__triplet_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hf7; obtain rfl := harg10.eq_unread hf8; obtain rfl := harg11.eq_unread hf9
  sl_exec (disch := first | exact h0 | exact h1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap
    · iexact H8
    ipureintro
    rw [read_writes_whole (S := S1024x1) _ _ off2_zero]
    dsimp only
    rw [pay7_reads arg2 harg2 arg3 harg3 arg4 harg4 arg5 harg5 arg6 harg6 arg7 harg7 x0 x1 x2 x3 x4 x5, readAt_whole arg10 harg10 off2_zero]
    rfl
  · iexists _; isplitr; swap
    · iexact H9
    ipureintro
    rw [read_writes_whole (S := S1024x1) _ _ off2_zero]
    dsimp only
    rw [pay8_reads arg2 harg2 arg3 harg3 arg4 harg4 arg5 harg5 arg6 harg6 arg7 harg7 x0 x1 x2 x3 x4 x5, readAt_whole arg11 harg11 off2_zero]
    rfl

/-- Last column tile (and not the first): the accumulators end at the fold over what they held, and the outputs'
    buffers, whatever they held, end at the accumulators. -/
theorem run_last (c : Dev nD) (i : grid0.Coords) (arg2 : Memref sig .tc .vmem S1024x2048 .bf16) (harg2 : arg2.IsWhole) (arg3 : Memref sig .tc .vmem S512x2048 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (h0 : ¬cond0 i) (h1 : cond1 i) (x0 : Vec F S1024x2048 .bf16) (x1 : Vec F S512x2048 .bf16) (x2 : Vec F S1024x1 .f32) (x3 : Vec F S1x512 .f32) (x4 : Vec F S1024x1 .i32) (x5 : Vec F S1x512 .i32) (s0 s1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare s0 ∗ owns (c : Thread nD τ) arg11 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (accMax x0 x1 x2 x3 x4 x5 s0) ∗ owns (c : Thread nD τ) arg9 fullShare (accMin x0 x1 x2 x3 x4 x5 s1)
            ∗ owns (c : Thread nD τ) arg10 fullShare (accMax x0 x1 x2 x3 x4 x5 s0)
            ∗ owns (c : Thread nD τ) arg11 fullShare (accMin x0 x1 x2 x3 x4 x5 s1)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K := by
  simp only [cc0__triplet_kernel_eq_skeleton]; unfold cc0__triplet_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg10.eq_unread hf8; obtain rfl := harg11.eq_unread hf9
  sl_exec (disch := first | exact h0 | exact h1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap
    · iexact H6
    ipureintro
    rw [read_writes_whole (S := S1024x1) _ _ off2_zero]
    sl_unfold_run_names
    rw [View.readCov_unit_zero (S := S1024x1) _ off2_zero]
    dsimp only
    rw [pay7_reads arg2 harg2 arg3 harg3 arg4 harg4 arg5 harg5 arg6 harg6 arg7 harg7 x0 x1 x2 x3 x4 x5, readAt_whole arg10 harg10 off2_zero]
    rfl
  isplitl [H7]
  · iexists _; isplitr; swap
    · iexact H7
    ipureintro
    rw [read_writes_whole (S := S1024x1) _ _ off2_zero]
    sl_unfold_run_names
    rw [View.readCov_unit_zero (S := S1024x1) _ off2_zero]
    dsimp only
    rw [pay8_reads arg2 harg2 arg3 harg3 arg4 harg4 arg5 harg5 arg6 harg6 arg7 harg7 x0 x1 x2 x3 x4 x5, readAt_whole arg11 harg11 off2_zero]
    rfl
  isplitl [H8]
  · iexists _; isplitr; swap
    · iexact H8
    ipureintro
    sl_unfold_run_names
    rw [read_writes_whole (S := S1024x1) _ _ off2_zero]
    dsimp only
    rw [pay7_reads arg2 harg2 arg3 harg3 arg4 harg4 arg5 harg5 arg6 harg6 arg7 harg7 x0 x1 x2 x3 x4 x5, readAt_whole arg10 harg10 off2_zero]
    rfl
  · iexists _; isplitr; swap
    · iexact H9
    ipureintro
    sl_unfold_run_names
    rw [read_writes_whole (S := S1024x1) _ _ off2_zero]
    dsimp only
    rw [pay8_reads arg2 harg2 arg3 harg3 arg4 harg4 arg5 harg5 arg6 harg6 arg7 harg7 x0 x1 x2 x3 x4 x5, readAt_whole arg11 harg11 off2_zero]
    rfl

end Cert.KernelIdeal.Hand

end
-- ==== Proof.KI.Oblig.lean ====
/-
  The body obligation of the pipeline's proof data: at every grid point, from the invariant before it and the windows'
  current staging buffers at what they then hold, the kernel body runs to the invariant after it and the buffers at what
  the proof data says the body leaves.

  The point's position among the eight column tiles of its row tile decides which of the body's three runs applies: at
  the first the accumulators are restarted, at the last they are also copied to the two outputs, whose buffers are
  otherwise handed back untouched (they are idle there and not written back).
-/
import proofs.«178719_j88089779241009_1_alg».proof.Proof.KI.Dats
import proofs.«178719_j88089779241009_1_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is handed at point `t`: the invariant, what the core owes, and the eight windows' current
    staging buffers one by one, each at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it hands back: the invariant at the next point, what the core then owes, and each buffer at what the body
    leaves there. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t)

/-! ## What the body leaves in each window's buffer -/

/-- An input is never idle: its buffer is left at its block. -/
theorem leaves0 (c : Dev nD) (t : Fin cfg0.N) :
    (dats m 0 c).leavesExact 0 t = owns (c : Thread nD τ) (st0_0 t) fullShare (iblk m c 0 t) := by
  unfold Dat.leavesExact; rw [live0 t, after0]
theorem leaves1 (c : Dev nD) (t : Fin cfg0.N) :
    (dats m 0 c).leavesExact 1 t = owns (c : Thread nD τ) (st0_1 t) fullShare (iblk m c 1 t) := by
  unfold Dat.leavesExact; rw [live1 t, after1]
theorem leaves2 (c : Dev nD) (t : Fin cfg0.N) :
    (dats m 0 c).leavesExact 2 t = owns (c : Thread nD τ) (st0_2 t) fullShare (iblk m c 2 t) := by
  unfold Dat.leavesExact; rw [live2 t, after2]
theorem leaves3 (c : Dev nD) (t : Fin cfg0.N) :
    (dats m 0 c).leavesExact 3 t = owns (c : Thread nD τ) (st0_3 t) fullShare (iblk m c 3 t) := by
  unfold Dat.leavesExact; rw [live3 t, after3]
theorem leaves4 (c : Dev nD) (t : Fin cfg0.N) :
    (dats m 0 c).leavesExact 4 t = owns (c : Thread nD τ) (st0_4 t) fullShare (iblk m c 4 t) := by
  unfold Dat.leavesExact; rw [live4 t, after4]
theorem leaves5 (c : Dev nD) (t : Fin cfg0.N) :
    (dats m 0 c).leavesExact 5 t = owns (c : Thread nD τ) (st0_5 t) fullShare (iblk m c 5 t) := by
  unfold Dat.leavesExact; rw [live5 t, after5]

/-- Away from the last column tile an output is idle and not written back: its buffer is handed back as found. -/
theorem leaves6_idle (c : Dev nD) (t : Fin cfg0.N) (h1 : ¬cond1 (grid0.coords t)) :
    (dats m 0 c).leavesExact 6 t = iprop(∃ d, owns (c : Thread nD τ) (st0_6 t) fullShare ((dats m 0 c).before 6 t d)) :=
  Dat.leavesExact_idle (dats m 0 c) 6 t (idle6 t h1) (noFlush6 t h1)
theorem leaves7_idle (c : Dev nD) (t : Fin cfg0.N) (h1 : ¬cond1 (grid0.coords t)) :
    (dats m 0 c).leavesExact 7 t = iprop(∃ d, owns (c : Thread nD τ) (st0_7 t) fullShare ((dats m 0 c).before 7 t d)) :=
  Dat.leavesExact_idle (dats m 0 c) 7 t (idle7 t h1) (noFlush7 t h1)

/-- At the last column tile it is live: its buffer is left at the accumulator. -/
theorem leaves6_live (c : Dev nD) (t : Fin cfg0.N) (h1 : cond1 (grid0.coords t)) :
    (dats m 0 c).leavesExact 6 t = owns (c : Thread nD τ) (st0_6 t) fullShare (scr m c t.val t.isLt).1 := by
  unfold Dat.leavesExact; rw [live6 t h1, after6]
theorem leaves7_live (c : Dev nD) (t : Fin cfg0.N) (h1 : cond1 (grid0.coords t)) :
    (dats m 0 c).leavesExact 7 t = owns (c : Thread nD τ) (st0_7 t) fullShare (scr m c t.val t.isLt).2 := by
  unfold Dat.leavesExact; rw [live7 t h1, after7]

/-- Whatever the invariant says the accumulators hold, they hold something. -/
theorem PhiS_any (c : Dev nD) (n : ℕ) (h : n ≤ cfg0.N) :
    PhiS m c n h ⊢ iprop((∃ d, owns (c : Thread nD τ) scM0 fullShare d) ∗ (∃ d, owns (c : Thread nD τ) scM1 fullShare d)) := by
  cases n with
  | zero => exact .rfl
  | succ n =>
    rw [PhiS_succ]
    iintro ⟨H0, H1⟩
    isplitl [H0]; · iexists _; iexact H0
    iexists _; iexact H1

/-! ## The body at a generic point -/

set_option maxHeartbeats 4000000 in
/-- The body at any point. The inputs' buffers hold their blocks. The point's position among the eight column tiles of
    its row tile picks the run. At a first column tile the accumulators, whatever the invariant says they hold, are
    restarted, and end at the fold over the neutral words: the invariant at the next point. Elsewhere the point is not
    the first of the grid, so the invariant hands them over at what the point before left, and they end at the fold over
    that. Away from a last column tile the two outputs' buffers go through the body untouched, at what they were found
    at; at a last column tile they end at the accumulators, which is what the proof data says is left and written
    back. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5]
  rw [show (dats m 0 c).owesAt () t.succ = (dats m 0 c).owesAt () t.castSucc from rfl]
  rw [Phi_succ, PhiS_succ, Phi_castSucc]
  rw [leaves0, leaves1, leaves2, leaves3, leaves4, leaves5]
  have hN : t.val < 32 := lt_of_lt_of_eq t.isLt (show cfg0.N = 32 from N_0)
  have hp : t.val - 1 < cfg0.N := Nat.lt_of_le_of_lt (Nat.sub_le _ _) t.isLt
  by_cases h0 : t.val % 8 = 0
  · by_cases h1 : t.val % 8 = 7
    · exfalso; omega
    · -- a first column tile
      have hc0 : cond0 (grid0.coords t) := (hcond0 t).mpr h0
      have hc1 : ¬cond1 (grid0.coords t) := fun h => h1 ((hcond1 t).mp h)
      rw [leaves6_idle m c t hc1, leaves7_idle m c t hc1, scr_first m c t h0]
      unfold step; dsimp only
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      ihave ⟨HS0, HS1⟩ := (PhiS_any m c t.val (Nat.le_of_lt t.isLt)) $$ HS
      unfold bodyAt0
      iapply (run_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM0 (Memref.isWhole_whole _) scM1 (Memref.isWhole_whole _) hc0 hc1 (xb0 m c t) (xb1 m c t) (xb2 m c t) (xb3 m c t) (xb4 m c t) (xb5 m c t) ((dats m 0 c).before 6 t d6) ((dats m 0 c).before 7 t d7) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hc0 : ¬cond0 (grid0.coords t) := fun h => h0 ((hcond0 t).mp h)
    have hz : t.val ≠ 0 := fun h => h0 (by rw [h])
    rw [PhiS_pos m c _ _ hz, scr_next m c t h0]
    unfold step; dsimp only
    by_cases h1 : t.val % 8 = 7
    · -- a last column tile
      have hc1 : cond1 (grid0.coords t) := (hcond1 t).mpr h1
      rw [leaves6_live m c t hc1, leaves7_live m c t hc1, scr_next m c t h0]
      unfold step; dsimp only
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      unfold bodyAt0
      iapply (run_last c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM0 (Memref.isWhole_whole _) scM1 (Memref.isWhole_whole _) hc0 hc1 (xb0 m c t) (xb1 m c t) (xb2 m c t) (xb3 m c t) (xb4 m c t) (xb5 m c t) (scr m c (t.val - 1) hp).1 (scr m c (t.val - 1) hp).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a column tile in between
      have hc1 : ¬cond1 (grid0.coords t) := fun h => h1 ((hcond1 t).mp h)
      rw [leaves6_idle m c t hc1, leaves7_idle m c t hc1]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      unfold bodyAt0
      iapply (run_mid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM0 (Memref.isWhole_whole _) scM1 (Memref.isWhole_whole _) hc0 hc1 (xb0 m c t) (xb1 m c t) (xb2 m c t) (xb3 m c t) (xb4 m c t) (xb5 m c t) ((dats m 0 c).before 6 t d6) ((dats m 0 c).before 7 t d7) (scr m c (t.val - 1) hp).1 (scr m c (t.val - 1) hp).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Exit.lean ====
/-
  The buffers as the region leaves them, and the arguments after the host operations that follow it.

  The region writes only its two result arrays; every other unscoped buffer is as the region found it. The nineteen host
  operations after the region read the two results and write only their own result buffers, so the two arguments of the
  program still hold what they held at launch.
-/
import proofs.«178719_j88089779241009_1_alg».proof.Proof.KI.Dats

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- The two result arrays after the region. -/
abbrev res6 (c : Dev nD) : Buf (Elt F) ((c : Thread nD τ).loc main_v7_0) := (dats m 0 c).arrAt 6 cfg0.N
abbrev res7 (c : Dev nD) : Buf (Elt F) ((c : Thread nD τ).loc main_v7_1) := (dats m 0 c).arrAt 7 cfg0.N

/-- Core `c`'s buffers as the region leaves them: the two results at their final contents, the rest as found. -/
def V1 (c : Dev nD) : Valuation τ sig (Elt F) :=
  Function.update (Function.update (V0 m c) (Proc.devRef .tc main_v7_0) (res6 m c)) (Proc.devRef .tc main_v7_1) (res7 m c)

theorem V1_v7_0 (c : Dev nD) : V1 m c (Proc.devRef .tc main_v7_0) = res6 m c := by
  unfold V1
  rw [Function.update_of_ne (StableHlo.devRef_ne_of_ne (by decide)), Function.update_self]
theorem V1_v7_1 (c : Dev nD) : V1 m c (Proc.devRef .tc main_v7_1) = res7 m c := by
  unfold V1
  rw [Function.update_self]
/-- Away from the two results nothing has changed. -/
theorem V1_of_ne (c : Dev nD) (b : Ref sig .tc) (h0 : b ≠ main_v7_0) (h1 : b ≠ main_v7_1) :
    V1 m c (Proc.devRef .tc b) = V0 m c (Proc.devRef .tc b) := by
  unfold V1
  rw [Function.update_of_ne (StableHlo.devRef_ne_of_ne h1), Function.update_of_ne (StableHlo.devRef_ne_of_ne h0)]

/-- After the nineteen host operations that follow the region the two arguments hold what they held at launch. -/
theorem tail_arg0 (c : Dev nD) :
    StableHlo.after hostOps1 (V1 m c) (Proc.devRef .tc main_arg0) = m ((c : Thread nD τ).loc main_arg0) := by
  show StableHlo.after hostOps1 (V1 m c) (Proc.devRef .tc main_arg0) = _
  after_results
  rw [V1_of_ne m c main_arg0 (by decide) (by decide)]
  show StableHlo.after hostOps0 (V₀ m c) (Proc.devRef .tc main_arg0) = _
  after_results
theorem tail_arg1 (c : Dev nD) :
    StableHlo.after hostOps1 (V1 m c) (Proc.devRef .tc main_arg1) = m ((c : Thread nD τ).loc main_arg1) := by
  show StableHlo.after hostOps1 (V1 m c) (Proc.devRef .tc main_arg1) = _
  after_results
  rw [V1_of_ne m c main_arg1 (by decide) (by decide)]
  show StableHlo.after hostOps0 (V₀ m c) (Proc.devRef .tc main_arg1) = _
  after_results

end Cert.KernelIdeal.Hand

end
-- ==== Proof.KI.Launch.lean ====
/-
  The launch: @main as a host stretch, the kernel region, a host stretch.

  The eight host operations before the region run over the core's unscoped buffers; the region takes the windows'
  arrays out of them, the matrix — which two windows read — as two half shares; it gives the arrays back with the two
  results at their final contents and the halves rejoined; the nineteen host operations after it run over the unscoped
  buffers again. Every weakly fair execution therefore terminates, and the final memory holds, in every unscoped buffer,
  what the later operations compute from the buffers the region left.
-/
import proofs.«178719_j88089779241009_1_alg».proof.Proof.KI.Oblig
import proofs.«178719_j88089779241009_1_alg».proof.Proof.KI.Exit
import Idealize.ShloMosaic.Lib.Pipeline.Regions
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev Lv : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owing nothing. -/
abbrev Rw (c : Dev nD) : sProp 𝕄 := iprop(∃ W, owes (c : Thread nD τ) (0 : CellTallies nD τ sig Unit) W)

/-! ## The windows' arrays one by one -/

/-- The buffers behind the windows' arrays, listed: seven, the matrix once. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v6) ↦{fullShare} W main_v6) ∗ (((c : Thread nD τ).loc main_v2) ↦{fullShare} W main_v2)
          ∗ (((c : Thread nD τ).loc main_v3) ↦{fullShare} W main_v3) ∗ (((c : Thread nD τ).loc main_v4) ↦{fullShare} W main_v4)
          ∗ (((c : Thread nD τ).loc main_v5) ↦{fullShare} W main_v5) ∗ (((c : Thread nD τ).loc main_v7_0) ↦{fullShare} W main_v7_0)
          ∗ (((c : Thread nD τ).loc main_v7_1) ↦{fullShare} W main_v7_1)) := by
  unfold Pipeline.arrBufs
  exact bigSep_eq_bigSepL_of_eq [main_v6, main_v2, main_v3, main_v4, main_v5, main_v7_0, main_v7_1] (by decide) (by decide) _

/-- The pipeline's arrays, window by window: the matrix at its two halves, the others whole. -/
theorem arrays_chain (c : Dev nD) (Fn : (w : Fin cfg0.W) → Buf (Elt F) ((cfg0.win w).arr.view.loc (c : Thread nD τ))) :
    ((dats m 0 c).arrays Fn : sProp 𝕄)
      = iprop((((c : Thread nD τ).loc main_v6) ↦{fullShare.left} Fn 0) ∗ (((c : Thread nD τ).loc main_v6) ↦{fullShare.right} Fn 1)
          ∗ (((c : Thread nD τ).loc main_v2) ↦{fullShare} Fn 2) ∗ (((c : Thread nD τ).loc main_v3) ↦{fullShare} Fn 3)
          ∗ (((c : Thread nD τ).loc main_v4) ↦{fullShare} Fn 4) ∗ (((c : Thread nD τ).loc main_v5) ↦{fullShare} Fn 5)
          ∗ (((c : Thread nD τ).loc main_v7_0) ↦{fullShare} Fn 6) ∗ (((c : Thread nD τ).loc main_v7_1) ↦{fullShare} Fn 7)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]
  rfl

/-! ## The host stretches -/

theorem hostOps0_fresh : ∀ op ∈ (hostOps0 : List (HloOp τ sig (Elt F))), op.fresh = ∅ := by
  intro _ h; (repeat (cases h with | head => rfl | tail _ h => ?_)); exact nomatch h

theorem hostOps1_fresh : ∀ op ∈ (hostOps1 : List (HloOp τ sig (Elt F))), op.fresh = ∅ := by
  intro _ h; (repeat (cases h with | head => rfl | tail _ h => ?_)); exact nomatch h

/-- The eight operations before the region, over the core's unscoped buffers at their launch contents. -/
def seg0 : Pipeline.HostSeg (Name := ℕ) (U := UR sig nD τ) (pcfgs (F := F)) defs₀ Variants.none Lv lv :=
  Pipeline.HostSeg.ofOps _ _ _ _ _ (Pipeline.ucRefs τ sig) hostOps0
    (fun op h => Pipeline.sub_ucRefs op ((List.forall_iff_forall_mem.mp hostOps0_sub) op h)) hostOps0_fresh (V₀ m) Rw

/-- The nineteen operations after the region, over the core's unscoped buffers as the region leaves them. -/
def seg1 : Pipeline.HostSeg (Name := ℕ) (U := UR sig nD τ) (pcfgs (F := F)) defs₀ Variants.none Lv lv :=
  Pipeline.HostSeg.ofOps _ _ _ _ _ (Pipeline.ucRefs τ sig) hostOps1
    (fun op h => Pipeline.sub_ucRefs op ((List.forall_iff_forall_mem.mp hostOps1_sub) op h)) hostOps1_fresh (V1 m) Rw

/-! ## The region -/

/-- The entry valuation and the exit valuation read at TensorCore references. -/
abbrev V1r (c : Dev nD) (b : Ref sig .tc) : Buf (Elt F) ((c : Thread nD τ).loc b) := V1 m c (Proc.devRef .tc b)

/-- The bypassing buffers are the same at both: the region writes only its two results. -/
theorem unscopedRest_exit (c : Dev nD) :
    (Pipeline.unscopedRest (Ix := Unit) (Name := ℕ) (U := UR sig nD τ) (Lvl := ℕ) spec0 c (V1r m c) : sProp 𝕄)
      = Pipeline.unscopedRest spec0 c (V m c) := by
  unfold Pipeline.unscopedRest
  refine bigSep_congr fun b hb => ?_
  have hb' : b ∉ Finset.univ.image (Pipeline.arrRef spec0) := (Finset.mem_sdiff.mp hb).2
  rw [show V1r m c b = V m c b from V1_of_ne m c b
    (fun e => hb' (Finset.mem_image.mpr ⟨6, Finset.mem_univ _, e.symm⟩))
    (fun e => hb' (Finset.mem_image.mpr ⟨7, Finset.mem_univ _, e.symm⟩))]

set_option backward.isDefEq.respectTransparency.types false in
/-- The region: entered from what the first stretch left — the windows' arrays into the pipeline, the matrix as two
    halves, everything else bypassing —, left with the halves rejoined and the two results at their final contents. -/
def reg0 : Pipeline.RegionSeg (pcfgs (F := F)) adm (dats m) () defs₀ Variants.none Lv lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lv lv 0 fun _ _ => rfl
  pre c := iprop(StableHlo.held (c : Thread nD τ) (Pipeline.ucRefs τ sig) (StableHlo.after hostOps0 (V₀ m c)) ∗ Rw c)
  post c := iprop(StableHlo.held (c : Thread nD τ) (Pipeline.ucRefs τ sig) (V1 m c) ∗ Rw c)
  X c := iprop(emp)
  Y c := iprop(emp)
  Z c := Pipeline.unscopedRest spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs 0 winFacts₀0.arr_unscoped c (V m c), arrBufs_chain, arrays_chain]
    iintro ⟨⟨⟨Ha, Hr⟩, HO⟩, -, -⟩
    icases Ha with ⟨H6, H2, H3, H4, H5, H70, H71⟩
    ihave Hs := (pointsTo_share (PosShare.mem_left_op_right fullShare)).1 $$ H6
    icases Hs with ⟨Hl, Hrr⟩
    imodintro
    isplitl [Hl Hrr H2 H3 H4 H5 H70 H71]
    · isplitl [Hl]; · iexact Hl
      isplitl [Hrr]; · iexact Hrr
      isplitl [H2]; · iexact H2
      isplitl [H3]; · iexact H3
      isplitl [H4]; · iexact H4
      isplitl [H5]; · iexact H5
      isplitl [H70]; · iexact H70
      iexact H71
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = PhiS m c 0 (Nat.zero_le _) from rfl, PhiS_zero m c 0 _ rfl, scopedRest0_eq]
    simp only [scM0, scM1, owns_whole]
    iintro ⟨-, -, Hr⟩
    iexact Hr
  hout c := by
    rw [Pipeline.ownSems0_none, show (dats m 0 c).Φ (Fin.last cfg0.N) = PhiS m c (Fin.last cfg0.N).val (Nat.le_of_lt_succ (Fin.last cfg0.N).isLt) from rfl,
      PhiS_pos m c _ _ (by rw [Fin.val_last]; have : cfg0.N = 32 := N_0; omega), scopedRest0_eq]
    simp only [scM0, scM1, owns_whole]
    iintro ⟨H0, H1⟩
    isplitr; · iempintro
    isplitr; · iempintro
    isplitl [H0]; · iexists _; iexact H0
    iexists _; iexact H1
  hexit c := by
    rw [arrays_chain, (dats m 0 c).arrAt_in 0 rfl, (dats m 0 c).arrAt_in 1 rfl, (dats m 0 c).arrAt_in 2 rfl, (dats m 0 c).arrAt_in 3 rfl,
      (dats m 0 c).arrAt_in 4 rfl, (dats m 0 c).arrAt_in 5 rfl,
      show StableHlo.held (c : Thread nD τ) (Pipeline.ucRefs τ sig) (V1 m c) = unscopedBufs c (V1r m c) from (Pipeline.unscopedBufs_held c _).symm,
      Pipeline.unscopedBufs_split₀ cfgs 0 winFacts₀0.arr_unscoped c (V1r m c), arrBufs_chain, unscopedRest_exit]
    rw [show V1r m c main_v6 = V m c main_v6 from V1_of_ne m c main_v6 (by decide) (by decide),
      show V1r m c main_v2 = V m c main_v2 from V1_of_ne m c main_v2 (by decide) (by decide),
      show V1r m c main_v3 = V m c main_v3 from V1_of_ne m c main_v3 (by decide) (by decide),
      show V1r m c main_v4 = V m c main_v4 from V1_of_ne m c main_v4 (by decide) (by decide),
      show V1r m c main_v5 = V m c main_v5 from V1_of_ne m c main_v5 (by decide) (by decide),
      show V1r m c main_v7_0 = res6 m c from V1_v7_0 m c, show V1r m c main_v7_1 = res7 m c from V1_v7_1 m c]
    iintro ⟨Ha, HO, -, HZ⟩
    icases Ha with ⟨Hl, Hrr, H2, H3, H4, H5, H70, H71⟩
    ihave H6 := (pointsTo_share (PosShare.mem_left_op_right fullShare)).2 $$ [Hl Hrr]
    · isplitl [Hl]; · iexact Hl
      iexact Hrr
    imodintro
    isplitr [HO]
    · isplitr [HZ]
      · isplitl [H6]; · iexact H6
        isplitl [H2]; · iexact H2
        isplitl [H3]; · iexact H3
        isplitl [H4]; · iexact H4
        isplitl [H5]; · iexact H5
        isplitl [H70]; · iexact H70
        iexact H71
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ Variants.none Lv lv) := [.host (seg0 m), .region (reg0 m), .host (seg1 m)]

/-! ## The run -/

set_option backward.isDefEq.respectTransparency.types false in
/-- From any memory with zero counters every weakly fair execution of @main on the TensorCores terminates, and in the
    final memory every unscoped buffer holds what the operations after the region compute from what the region left. -/
theorem run_main : θ_run (defs (F := F)) (onTc (τ := τ) (main (F := F))) ⟨m, fun _ => 0, ρ⟩
    (fun r => ∀ c : Dev nD, ∀ b ∈ Pipeline.ucRefs τ sig, r.2.mem (c, b) = StableHlo.after hostOps1 (V1 m c) b) :=
  Pipeline.θ_run_regions_kit (pcfgs (F := F)) adm (dats m) () cellOf_inj emb₁ defs₀ Variants.none Lv lv m ρ main (segs m)
    (fun c Q => by rw [main_segs adm (dats m) () Variants.none Lv lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ Rw c))
    (Tₙ := fun c => StableHlo.held (c : Thread nD τ) (Pipeline.ucRefs τ sig) (StableHlo.after hostOps1 (V1 m c)))
    (hch := ⟨fun _ => .rfl, fun _ => .rfl, fun _ => .rfl, fun _ => .rfl⟩)
    (hinit := by
      refine Pipeline.initEach Lv lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem (c, b) = StableHlo.after hostOps1 (V1 m c) b)
    (hfin := fun c s' => by
      unfold StableHlo.held
      iintro ⟨Hh, HSI⟩
      ihave Hr := (pointsTo_read_all (Pipeline.ucRefs τ sig) (fun b => ((c, b) : Loc nD τ sig)) (StableHlo.after hostOps1 (V1 m c)) s') $$ [Hh HSI]
      · isplitl [Hh]; · iexact Hh
        iexact HSI
      icases Hr with ⟨%h, HSI⟩
      imodintro
      isplitr; · ipureintro; exact h
      iexact HSI)
    (hQ := fun _ h => h)

end Cert.KernelIdeal.Hand

end
-- ==== Proof.K.Defs.lean ====
/-
  What the body's runs and the pipeline's proof data are stated over: the two conditions the body branches on, read off
  the grid coordinates and decided over the grid; where the two outputs are idle; and the two accumulator updates.
-/
import proofs.«178719_j88089779241009_1_alg».proof.Proof.Gen.Kernel.Skeleton
import proofs.«178719_j88089779241009_1_alg».proof.Proof.Gen.Kernel.Launch
import proofs.«178719_j88089779241009_1_alg».proof.Proof.Gen.Kernel.Points
import Idealize.ShloMosaic.Lib.Pipeline.Kit

noncomputable section

namespace Cert.Kernel.Hand

open Cert.Kernel Cert.Kernel.Gen
open Idealize.ShloMosaic Idealize.ShloMosaic.TcCoe
open Idealize.SL Idealize.SL.Sem

variable {F : FTy → Type} [FloatOps F]

/-- The first conditional's condition, from the grid coordinates: the column tile is the first. -/
abbrev cond0 (i : grid0.Coords) : Prop := (Scalar.cmpi .ne (Scalar.extui (Scalar.cmpi .eq (BitVec.ofNat 32 (i 1).val) 0#32)) 0#32) = 1#1
/-- The second conditional's condition: the column tile is the last. -/
abbrev cond1 (i : grid0.Coords) : Prop := k0_cond2 i = 1#1

/-- The running maximum after a point: the point's lane maximum of the masked distances folded into `s`. -/
def accMax (x0 : Vec F S1024x2048 .bf16) (x1 : Vec F S512x2048 .bf16) (x2 : Vec F S1024x1 .f32) (x3 : Vec F S1x512 .f32) (x4 : Vec F S1024x1 .i32) (x5 : Vec F S1x512 .i32) (s : Vec F S1024x1 .f32) : Vec F S1024x1 .f32 :=
  k0_pay1 (k0_pay7 x0 x1 x2 x3 x4 x5) s
/-- The running minimum after a point: the point's lane minimum of the masked distances folded into `s`. -/
def accMin (x0 : Vec F S1024x2048 .bf16) (x1 : Vec F S512x2048 .bf16) (x2 : Vec F S1024x1 .f32) (x3 : Vec F S1x512 .f32) (x4 : Vec F S1024x1 .i32) (x5 : Vec F S1x512 .i32) (s : Vec F S1024x1 .f32) : Vec F S1024x1 .f32 :=
  k0_pay2 (k0_pay8 x0 x1 x2 x3 x4 x5) s

/-- The first condition holds at the points ≡ 0 (mod 8): the first column tile of each row tile. -/
theorem hcond0 : ∀ t : Fin cfg0.N, cond0 (grid0.coords t) ↔ t.val % 8 = 0 :=
  (by decide +kernel : ∀ t : Fin grid0.N, cond0 (grid0.coords t) ↔ t.val % 8 = 0)
/-- The second condition holds at the points ≡ 7 (mod 8): the last column tile of each row tile. -/
theorem hcond1 : ∀ t : Fin cfg0.N, cond1 (grid0.coords t) ↔ t.val % 8 = 7 :=
  (by decide +kernel : ∀ t : Fin grid0.N, cond1 (grid0.coords t) ↔ t.val % 8 = 7)

/-- The inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- Away from the last column tile both outputs are idle and not written back; at it they are live. -/
theorem idle6 : ∀ t : Fin cfg0.N, ¬cond1 (grid0.coords t) → cfg0.idle 6 (grid0.coords t) = true := by decide +kernel
theorem idle7 : ∀ t : Fin cfg0.N, ¬cond1 (grid0.coords t) → cfg0.idle 7 (grid0.coords t) = true := by decide +kernel
theorem noFlush6 : ∀ t : Fin cfg0.N, ¬cond1 (grid0.coords t) → (cfg0.win 6).flush t = false := by decide +kernel
theorem noFlush7 : ∀ t : Fin cfg0.N, ¬cond1 (grid0.coords t) → (cfg0.win 7).flush t = false := by decide +kernel
theorem live6 : ∀ t : Fin cfg0.N, cond1 (grid0.coords t) → cfg0.idle 6 (grid0.coords t) = false := by decide +kernel
theorem live7 : ∀ t : Fin cfg0.N, cond1 (grid0.coords t) → cfg0.idle 7 (grid0.coords t) = false := by decide +kernel

end Cert.Kernel.Hand

end
-- ==== Proof.K.Dats.lean ====
/-
  The pipeline's proof data.

  The region finds the arrays as the eight host operations before it leave them (`V`). After the body at a point every
  input's staging buffer still holds its block of its array. The two scratch accumulators hold, after point `n`, the
  fold of the point's lane maximum / minimum into what point `n − 1` left, restarted from the neutral words at the first
  column tile of each row tile (`scr`); at the last column tile of a row tile that is also what the two outputs' buffers
  hold, and what is written back. The matrix is handed to two windows at once, so each holds one half of it.
-/
import proofs.«178719_j88089779241009_1_alg».proof.Proof.K.Defs
import Idealize.ShloMosaic.Lib.Pipeline.FrameBody
import Idealize.ShloMosaic.Lib.Pipeline.Regions

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, as a valuation; -/
abbrev V₀ (c : Dev nD) : Valuation τ sig (Elt F) := fun b => m (c, b)
/-- after the eight host operations before the region; -/
abbrev V0 (c : Dev nD) : Valuation τ sig (Elt F) := StableHlo.after hostOps0 (V₀ m c)
/-- read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The six input blocks at a point, at their literal types. -/
abbrev xb0 (c : Dev nD) (t : Fin cfg0.N) : Vec F S1024x2048 .bf16 := iblk m c 0 t
abbrev xb1 (c : Dev nD) (t : Fin cfg0.N) : Vec F S512x2048 .bf16 := iblk m c 1 t
abbrev xb2 (c : Dev nD) (t : Fin cfg0.N) : Vec F S1024x1 .f32 := iblk m c 2 t
abbrev xb3 (c : Dev nD) (t : Fin cfg0.N) : Vec F S1x512 .f32 := iblk m c 3 t
abbrev xb4 (c : Dev nD) (t : Fin cfg0.N) : Vec F S1024x1 .i32 := iblk m c 4 t
abbrev xb5 (c : Dev nD) (t : Fin cfg0.N) : Vec F S1x512 .i32 := iblk m c 5 t

/-! ## The accumulators point by point -/

/-- The point's update of the two accumulators over `(s0, s1)`. -/
def step (c : Dev nD) (t : Fin cfg0.N) (s : Vec F S1024x1 .f32 × Vec F S1024x1 .f32) : Vec F S1024x1 .f32 × Vec F S1024x1 .f32 :=
  (accMax (xb0 m c t) (xb1 m c t) (xb2 m c t) (xb3 m c t) (xb4 m c t) (xb5 m c t) s.1,
   accMin (xb0 m c t) (xb1 m c t) (xb2 m c t) (xb3 m c t) (xb4 m c t) (xb5 m c t) s.2)

/-- What the two accumulators hold after the body at position `n`: the update over the neutral words at the first
    column tile of a row tile, over what position `n − 1` left elsewhere. -/
def scr (c : Dev nD) : (n : ℕ) → n < cfg0.N → Vec F S1024x1 .f32 × Vec F S1024x1 .f32
  | 0, hn => step m c ⟨0, hn⟩ (k0_pay3 (F := F), k0_pay4 (F := F))
  | n + 1, hn =>
    if (n + 1) % 8 = 0 then step m c ⟨n + 1, hn⟩ (k0_pay3 (F := F), k0_pay4 (F := F))
    else step m c ⟨n + 1, hn⟩ (scr c n (Nat.lt_of_succ_lt hn))

/-- At a first column tile: the update over the neutral words. -/
theorem scr_first (c : Dev nD) (t : Fin cfg0.N) (h : t.val % 8 = 0) :
    scr m c t.val t.isLt = step m c t (k0_pay3 (F := F), k0_pay4 (F := F)) := by
  obtain ⟨n, hn⟩ := t
  cases n with
  | zero => rfl
  | succ n => exact if_pos h

/-- Elsewhere: the update over what the point before left. -/
theorem scr_next (c : Dev nD) (t : Fin cfg0.N) (h : ¬t.val % 8 = 0) :
    scr m c t.val t.isLt = step m c t (scr m c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The two scratch accumulators, whole buffers of the kernel's own. -/
abbrev scM0 : Memref sig .tc .vmem S1024x1 .f32 := Memref.whole cc0_scratch0
abbrev scM1 : Memref sig .tc .vmem S1024x1 .f32 := Memref.whole cc0_scratch1

/-- Before the first point the accumulators hold anything; before position `n + 1` what position `n` left. -/
def PhiS (c : Dev nD) : (n : ℕ) → n ≤ cfg0.N → sProp 𝕄
  | 0, _ => iprop((∃ d, owns (c : Thread nD τ) scM0 fullShare d) ∗ (∃ d, owns (c : Thread nD τ) scM1 fullShare d))
  | n + 1, hn => iprop(owns (c : Thread nD τ) scM0 fullShare (scr m c n hn).1 ∗ owns (c : Thread nD τ) scM1 fullShare (scr m c n hn).2)

theorem PhiS_zero (c : Dev nD) (n : ℕ) (h : n ≤ cfg0.N) (hz : n = 0) :
    PhiS m c n h = iprop((∃ d, owns (c : Thread nD τ) scM0 fullShare d) ∗ (∃ d, owns (c : Thread nD τ) scM1 fullShare d)) := by
  subst hz; rfl

theorem PhiS_succ (c : Dev nD) (n : ℕ) (hn : n < cfg0.N) :
    PhiS m c (n + 1) hn = iprop(owns (c : Thread nD τ) scM0 fullShare (scr m c n hn).1 ∗ owns (c : Thread nD τ) scM1 fullShare (scr m c n hn).2) := rfl

theorem PhiS_pos (c : Dev nD) (n : ℕ) (h : n ≤ cfg0.N) (hz : n ≠ 0) :
    PhiS m c n h = iprop(owns (c : Thread nD τ) scM0 fullShare (scr m c (n - 1) (by omega)).1 ∗ owns (c : Thread nD τ) scM1 fullShare (scr m c (n - 1) (by omega)).2) := by
  cases n with
  | zero => exact absurd rfl hz
  | succ n => rfl

/-! ## The proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (scr m c t.val t.isLt).1
    | ⟨7, _⟩ => (scr m c t.val t.isLt).2
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem Phi_succ (c : Dev nD) (t : Fin cfg0.N) :
    (dats m 0 c).Φ t.succ = PhiS m c (t.val + 1) t.isLt := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (scr m c t.val t.isLt).1 := by dsimp only [dats]
theorem after7 (c : Dev nD) (t : Fin cfg0.N) : (dats m 0 c).after 7 t = (scr m c t.val t.isLt).2 := by dsimp only [dats]

/-- An input's current staging buffer holds its block at every point, fetched there or not: unfetched, its block
    index has not moved since the fetch. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
      (fun t => by rw [after5]; unfold Dat.blockOf iblk; rw [A_eq]; try rfl) t d).trans
    (by unfold Dat.fetched Dat.blockOf iblk; rw [A_eq]; try rfl)

end Cert.Kernel.Hand

end
-- ==== Proof.K.Body.lean ====
/-
  The kernel body run whole, on any staging memrefs, in each of the three cases its two conditionals meet on the grid.

  With the six input blocks `x0 … x5` in their buffers, the body folds this point's lane maximum and lane minimum of the
  masked distances into the two scratch accumulators: at the first column tile over the neutral words it has just
  stored there, afterwards over what the accumulators held; at the last column tile it also copies both accumulators
  into the two output buffers. The inputs' buffers are left as they were, and an output the case does not store into is
  left as it was.
-/
import proofs.«178719_j88089779241009_1_alg».proof.Proof.K.Defs
import proofs.«178719_j88089779241009_1_alg».proof.Proof.Gen.Kernel.Skeleton
import proofs.«178719_j88089779241009_1_alg».proof.Proof.Gen.Kernel.Launch
import proofs.«178719_j88089779241009_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-block loads and stores of a whole buffer

Every load and store of the body moves a whole block: the rectangle at zero offsets of the buffer's own sizes. Through
it a load reads the buffer's contents, and a store, made last, leaves its payload whatever was there before. -/

section Whole

variable {sig' : RefSig} {κ' : Kind} {sp' : Space} {S : Shape} {e : EltTy} {Val : EltTy → Type}

/-- The offsets of a whole block of rank two vanish on both axes. -/
theorem off2_zero : (![0, 0] : Fin 2 → ℕ) = fun _ => 0 := by
  funext a
  match a with
  | ⟨0, _⟩ => rfl
  | ⟨1, _⟩ => rfl

/-- A whole-block store made last leaves its payload: the earlier stores and the prior contents do not matter. -/
theorem read_writes_whole (v : View sig' κ' sp' S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A whole-block load of a whole buffer reads the buffer's contents. -/
theorem readAt_whole (m : Memref sig' κ' sp' S e) (hm : m.IsWhole) {off : Fin S.rank → ℕ} (h : off = fun _ => 0)
    (inb : ∀ a, off a + S.size a ≤ S.size a) (X : S.Idx → Val e) :
    m.view.readAt Val (Rect.unit off S.size inb).toLoadRect (hm.unread X) = X := by
  rw [View.readAt_eq_ld, hm.read_unread, View.ld_unit_zero h]

end Whole

/-! ## The payloads over the loaded blocks -/

/-- The point's lane maximum, computed from the six whole-block loads, is the one computed from the blocks' contents. -/
theorem pay7_reads (arg2 : Memref sig .tc .vmem S1024x2048 .bf16) (harg2 : arg2.IsWhole) (arg3 : Memref sig .tc .vmem S512x2048 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole)
    (x0 : Vec F S1024x2048 .bf16) (x1 : Vec F S512x2048 .bf16) (x2 : Vec F S1024x1 .f32) (x3 : Vec F S1x512 .f32) (x4 : Vec F S1024x1 .i32) (x5 : Vec F S1x512 .i32) :
    k0_pay7 (View.readAt (Elt F) arg2.view (Rect.unit ![0, 0] S1024x2048.size inb_S1024x2048_S1024x2048_0_0).toLoadRect (harg2.unread x0))
        (View.readAt (Elt F) arg3.view (Rect.unit ![0, 0] S512x2048.size inb_S512x2048_S512x2048_0_0).toLoadRect (harg3.unread x1))
        (View.readAt (Elt F) arg4.view (Rect.unit ![0, 0] S1024x1.size inb_S1024x1_S1024x1_0_0).toLoadRect (harg4.unread x2))
        (View.readAt (Elt F) arg5.view (Rect.unit ![0, 0] S1x512.size inb_S1x512_S1x512_0_0).toLoadRect (harg5.unread x3))
        (View.readAt (Elt F) arg6.view (Rect.unit ![0, 0] S1024x1.size inb_S1024x1_S1024x1_0_0).toLoadRect (harg6.unread x4))
        (View.readAt (Elt F) arg7.view (Rect.unit ![0, 0] S1x512.size inb_S1x512_S1x512_0_0).toLoadRect (harg7.unread x5))
      = k0_pay7 x0 x1 x2 x3 x4 x5 := by
  rw [readAt_whole arg2 harg2 off2_zero, readAt_whole arg3 harg3 off2_zero, readAt_whole arg4 harg4 off2_zero,
    readAt_whole arg5 harg5 off2_zero, readAt_whole arg6 harg6 off2_zero, readAt_whole arg7 harg7 off2_zero]

/-- The point's lane minimum likewise. -/
theorem pay8_reads (arg2 : Memref sig .tc .vmem S1024x2048 .bf16) (harg2 : arg2.IsWhole) (arg3 : Memref sig .tc .vmem S512x2048 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole)
    (x0 : Vec F S1024x2048 .bf16) (x1 : Vec F S512x2048 .bf16) (x2 : Vec F S1024x1 .f32) (x3 : Vec F S1x512 .f32) (x4 : Vec F S1024x1 .i32) (x5 : Vec F S1x512 .i32) :
    k0_pay8 (View.readAt (Elt F) arg2.view (Rect.unit ![0, 0] S1024x2048.size inb_S1024x2048_S1024x2048_0_0).toLoadRect (harg2.unread x0))
        (View.readAt (Elt F) arg3.view (Rect.unit ![0, 0] S512x2048.size inb_S512x2048_S512x2048_0_0).toLoadRect (harg3.unread x1))
        (View.readAt (Elt F) arg4.view (Rect.unit ![0, 0] S1024x1.size inb_S1024x1_S1024x1_0_0).toLoadRect (harg4.unread x2))
        (View.readAt (Elt F) arg5.view (Rect.unit ![0, 0] S1x512.size inb_S1x512_S1x512_0_0).toLoadRect (harg5.unread x3))
        (View.readAt (Elt F) arg6.view (Rect.unit ![0, 0] S1024x1.size inb_S1024x1_S1024x1_0_0).toLoadRect (harg6.unread x4))
        (View.readAt (Elt F) arg7.view (Rect.unit ![0, 0] S1x512.size inb_S1x512_S1x512_0_0).toLoadRect (harg7.unread x5))
      = k0_pay8 x0 x1 x2 x3 x4 x5 := by
  rw [readAt_whole arg2 harg2 off2_zero, readAt_whole arg3 harg3 off2_zero, readAt_whole arg4 harg4 off2_zero,
    readAt_whole arg5 harg5 off2_zero, readAt_whole arg6 harg6 off2_zero, readAt_whole arg7 harg7 off2_zero]

/-- First column tile (and not the last): the accumulators, whatever they held, end at the fold over the neutral words;
    the outputs' buffers are untouched. -/
theorem run_first (c : Dev nD) (i : grid0.Coords) (arg2 : Memref sig .tc .vmem S1024x2048 .bf16) (harg2 : arg2.IsWhole) (arg3 : Memref sig .tc .vmem S512x2048 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (h0 : cond0 i) (h1 : ¬cond1 i) (x0 : Vec F S1024x2048 .bf16) (x1 : Vec F S512x2048 .bf16) (x2 : Vec F S1024x1 .f32) (x3 : Vec F S1x512 .f32) (x4 : Vec F S1024x1 .i32) (x5 : Vec F S1x512 .i32) (o6 o7 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare o6 ∗ owns (c : Thread nD τ) arg9 fullShare o7
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare o6 ∗ owns (c : Thread nD τ) arg9 fullShare o7
            ∗ owns (c : Thread nD τ) arg10 fullShare (accMax x0 x1 x2 x3 x4 x5 (k0_pay3 (F := F)))
            ∗ owns (c : Thread nD τ) arg11 fullShare (accMin x0 x1 x2 x3 x4 x5 (k0_pay4 (F := F)))) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K := by
  simp only [cc0__triplet_kernel_eq_skeleton]; unfold cc0__triplet_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hf7
  sl_exec (disch := first | exact h0 | exact h1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap
    · iexact H8
    ipureintro
    rw [read_writes_whole (S := S1024x1) _ _ off2_zero]
    sl_unfold_run_names
    dsimp only
    rw [pay7_reads arg2 harg2 arg3 harg3 arg4 harg4 arg5 harg5 arg6 harg6 arg7 harg7 x0 x1 x2 x3 x4 x5, View.readCov_unit_zero (S := S1024x1) _ off2_zero]
    rfl
  · iexists _; isplitr; swap
    · iexact H9
    ipureintro
    rw [read_writes_whole (S := S1024x1) _ _ off2_zero]
    sl_unfold_run_names
    dsimp only
    rw [pay8_reads arg2 harg2 arg3 harg3 arg4 harg4 arg5 harg5 arg6 harg6 arg7 harg7 x0 x1 x2 x3 x4 x5, View.readCov_unit_zero (S := S1024x1) _ off2_zero]
    rfl

/-- A column tile that is neither the first nor the last: the accumulators end at the fold over what they held;
    the outputs' buffers are untouched. -/
theorem run_mid (c : Dev nD) (i : grid0.Coords) (arg2 : Memref sig .tc .vmem S1024x2048 .bf16) (harg2 : arg2.IsWhole) (arg3 : Memref sig .tc .vmem S512x2048 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (h0 : ¬cond0 i) (h1 : ¬cond1 i) (x0 : Vec F S1024x2048 .bf16) (x1 : Vec F S512x2048 .bf16) (x2 : Vec F S1024x1 .f32) (x3 : Vec F S1x512 .f32) (x4 : Vec F S1024x1 .i32) (x5 : Vec F S1x512 .i32) (o6 o7 s0 s1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare o6 ∗ owns (c : Thread nD τ) arg9 fullShare o7
        ∗ owns (c : Thread nD τ) arg10 fullShare s0 ∗ owns (c : Thread nD τ) arg11 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare o6 ∗ owns (c : Thread nD τ) arg9 fullShare o7
            ∗ owns (c : Thread nD τ) arg10 fullShare (accMax x0 x1 x2 x3 x4 x5 s0)
            ∗ owns (c : Thread nD τ) arg11 fullShare (accMin x0 x1 x2 x3 x4 x5 s1)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K := by
  simp only [cc0__triplet_kernel_eq_skeleton]; unfold cc0__triplet_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hf7; obtain rfl := harg10.eq_unread hf8; obtain rfl := harg11.eq_unread hf9
  sl_exec (disch := first | exact h0 | exact h1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap
    · iexact H8
    ipureintro
    rw [read_writes_whole (S := S1024x1) _ _ off2_zero]
    dsimp only
    rw [pay7_reads arg2 harg2 arg3 harg3 arg4 harg4 arg5 harg5 arg6 harg6 arg7 harg7 x0 x1 x2 x3 x4 x5, readAt_whole arg10 harg10 off2_zero]
    rfl
  · iexists _; isplitr; swap
    · iexact H9
    ipureintro
    rw [read_writes_whole (S := S1024x1) _ _ off2_zero]
    dsimp only
    rw [pay8_reads arg2 harg2 arg3 harg3 arg4 harg4 arg5 harg5 arg6 harg6 arg7 harg7 x0 x1 x2 x3 x4 x5, readAt_whole arg11 harg11 off2_zero]
    rfl

/-- Last column tile (and not the first): the accumulators end at the fold over what they held, and the outputs'
    buffers, whatever they held, end at the accumulators. -/
theorem run_last (c : Dev nD) (i : grid0.Coords) (arg2 : Memref sig .tc .vmem S1024x2048 .bf16) (harg2 : arg2.IsWhole) (arg3 : Memref sig .tc .vmem S512x2048 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (h0 : ¬cond0 i) (h1 : cond1 i) (x0 : Vec F S1024x2048 .bf16) (x1 : Vec F S512x2048 .bf16) (x2 : Vec F S1024x1 .f32) (x3 : Vec F S1x512 .f32) (x4 : Vec F S1024x1 .i32) (x5 : Vec F S1x512 .i32) (s0 s1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare s0 ∗ owns (c : Thread nD τ) arg11 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (accMax x0 x1 x2 x3 x4 x5 s0) ∗ owns (c : Thread nD τ) arg9 fullShare (accMin x0 x1 x2 x3 x4 x5 s1)
            ∗ owns (c : Thread nD τ) arg10 fullShare (accMax x0 x1 x2 x3 x4 x5 s0)
            ∗ owns (c : Thread nD τ) arg11 fullShare (accMin x0 x1 x2 x3 x4 x5 s1)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K := by
  simp only [cc0__triplet_kernel_eq_skeleton]; unfold cc0__triplet_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg10.eq_unread hf8; obtain rfl := harg11.eq_unread hf9
  sl_exec (disch := first | exact h0 | exact h1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap
    · iexact H6
    ipureintro
    rw [read_writes_whole (S := S1024x1) _ _ off2_zero]
    sl_unfold_run_names
    rw [View.readCov_unit_zero (S := S1024x1) _ off2_zero]
    dsimp only
    rw [pay7_reads arg2 harg2 arg3 harg3 arg4 harg4 arg5 harg5 arg6 harg6 arg7 harg7 x0 x1 x2 x3 x4 x5, readAt_whole arg10 harg10 off2_zero]
    rfl
  isplitl [H7]
  · iexists _; isplitr; swap
    · iexact H7
    ipureintro
    rw [read_writes_whole (S := S1024x1) _ _ off2_zero]
    sl_unfold_run_names
    rw [View.readCov_unit_zero (S := S1024x1) _ off2_zero]
    dsimp only
    rw [pay8_reads arg2 harg2 arg3 harg3 arg4 harg4 arg5 harg5 arg6 harg6 arg7 harg7 x0 x1 x2 x3 x4 x5, readAt_whole arg11 harg11 off2_zero]
    rfl
  isplitl [H8]
  · iexists _; isplitr; swap
    · iexact H8
    ipureintro
    sl_unfold_run_names
    rw [read_writes_whole (S := S1024x1) _ _ off2_zero]
    dsimp only
    rw [pay7_reads arg2 harg2 arg3 harg3 arg4 harg4 arg5 harg5 arg6 harg6 arg7 harg7 x0 x1 x2 x3 x4 x5, readAt_whole arg10 harg10 off2_zero]
    rfl
  · iexists _; isplitr; swap
    · iexact H9
    ipureintro
    sl_unfold_run_names
    rw [read_writes_whole (S := S1024x1) _ _ off2_zero]
    dsimp only
    rw [pay8_reads arg2 harg2 arg3 harg3 arg4 harg4 arg5 harg5 arg6 harg6 arg7 harg7 x0 x1 x2 x3 x4 x5, readAt_whole arg11 harg11 off2_zero]
    rfl

end Cert.Kernel.Hand

end
-- ==== Proof.K.Oblig.lean ====
/-
  The body obligation of the pipeline's proof data: at every grid point, from the invariant before it and the windows'
  current staging buffers at what they then hold, the kernel body runs to the invariant after it and the buffers at what
  the proof data says the body leaves.

  The point's position among the eight column tiles of its row tile decides which of the body's three runs applies: at
  the first the accumulators are restarted, at the last they are also copied to the two outputs, whose buffers are
  otherwise handed back untouched (they are idle there and not written back).
-/
import proofs.«178719_j88089779241009_1_alg».proof.Proof.K.Dats
import proofs.«178719_j88089779241009_1_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is handed at point `t`: the invariant, what the core owes, and the eight windows' current
    staging buffers one by one, each at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it hands back: the invariant at the next point, what the core then owes, and each buffer at what the body
    leaves there. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t)

/-! ## What the body leaves in each window's buffer -/

/-- An input is never idle: its buffer is left at its block. -/
theorem leaves0 (c : Dev nD) (t : Fin cfg0.N) :
    (dats m 0 c).leavesExact 0 t = owns (c : Thread nD τ) (st0_0 t) fullShare (iblk m c 0 t) := by
  unfold Dat.leavesExact; rw [live0 t, after0]
theorem leaves1 (c : Dev nD) (t : Fin cfg0.N) :
    (dats m 0 c).leavesExact 1 t = owns (c : Thread nD τ) (st0_1 t) fullShare (iblk m c 1 t) := by
  unfold Dat.leavesExact; rw [live1 t, after1]
theorem leaves2 (c : Dev nD) (t : Fin cfg0.N) :
    (dats m 0 c).leavesExact 2 t = owns (c : Thread nD τ) (st0_2 t) fullShare (iblk m c 2 t) := by
  unfold Dat.leavesExact; rw [live2 t, after2]
theorem leaves3 (c : Dev nD) (t : Fin cfg0.N) :
    (dats m 0 c).leavesExact 3 t = owns (c : Thread nD τ) (st0_3 t) fullShare (iblk m c 3 t) := by
  unfold Dat.leavesExact; rw [live3 t, after3]
theorem leaves4 (c : Dev nD) (t : Fin cfg0.N) :
    (dats m 0 c).leavesExact 4 t = owns (c : Thread nD τ) (st0_4 t) fullShare (iblk m c 4 t) := by
  unfold Dat.leavesExact; rw [live4 t, after4]
theorem leaves5 (c : Dev nD) (t : Fin cfg0.N) :
    (dats m 0 c).leavesExact 5 t = owns (c : Thread nD τ) (st0_5 t) fullShare (iblk m c 5 t) := by
  unfold Dat.leavesExact; rw [live5 t, after5]

/-- Away from the last column tile an output is idle and not written back: its buffer is handed back as found. -/
theorem leaves6_idle (c : Dev nD) (t : Fin cfg0.N) (h1 : ¬cond1 (grid0.coords t)) :
    (dats m 0 c).leavesExact 6 t = iprop(∃ d, owns (c : Thread nD τ) (st0_6 t) fullShare ((dats m 0 c).before 6 t d)) :=
  Dat.leavesExact_idle (dats m 0 c) 6 t (idle6 t h1) (noFlush6 t h1)
theorem leaves7_idle (c : Dev nD) (t : Fin cfg0.N) (h1 : ¬cond1 (grid0.coords t)) :
    (dats m 0 c).leavesExact 7 t = iprop(∃ d, owns (c : Thread nD τ) (st0_7 t) fullShare ((dats m 0 c).before 7 t d)) :=
  Dat.leavesExact_idle (dats m 0 c) 7 t (idle7 t h1) (noFlush7 t h1)

/-- At the last column tile it is live: its buffer is left at the accumulator. -/
theorem leaves6_live (c : Dev nD) (t : Fin cfg0.N) (h1 : cond1 (grid0.coords t)) :
    (dats m 0 c).leavesExact 6 t = owns (c : Thread nD τ) (st0_6 t) fullShare (scr m c t.val t.isLt).1 := by
  unfold Dat.leavesExact; rw [live6 t h1, after6]
theorem leaves7_live (c : Dev nD) (t : Fin cfg0.N) (h1 : cond1 (grid0.coords t)) :
    (dats m 0 c).leavesExact 7 t = owns (c : Thread nD τ) (st0_7 t) fullShare (scr m c t.val t.isLt).2 := by
  unfold Dat.leavesExact; rw [live7 t h1, after7]

/-- Whatever the invariant says the accumulators hold, they hold something. -/
theorem PhiS_any (c : Dev nD) (n : ℕ) (h : n ≤ cfg0.N) :
    PhiS m c n h ⊢ iprop((∃ d, owns (c : Thread nD τ) scM0 fullShare d) ∗ (∃ d, owns (c : Thread nD τ) scM1 fullShare d)) := by
  cases n with
  | zero => exact .rfl
  | succ n =>
    rw [PhiS_succ]
    iintro ⟨H0, H1⟩
    isplitl [H0]; · iexists _; iexact H0
    iexists _; iexact H1

/-! ## The body at a generic point -/

set_option maxHeartbeats 4000000 in
/-- The body at any point. The inputs' buffers hold their blocks. The point's position among the eight column tiles of
    its row tile picks the run. At a first column tile the accumulators, whatever the invariant says they hold, are
    restarted, and end at the fold over the neutral words: the invariant at the next point. Elsewhere the point is not
    the first of the grid, so the invariant hands them over at what the point before left, and they end at the fold over
    that. Away from a last column tile the two outputs' buffers go through the body untouched, at what they were found
    at; at a last column tile they end at the accumulators, which is what the proof data says is left and written
    back. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5]
  rw [show (dats m 0 c).owesAt () t.succ = (dats m 0 c).owesAt () t.castSucc from rfl]
  rw [Phi_succ, PhiS_succ, Phi_castSucc]
  rw [leaves0, leaves1, leaves2, leaves3, leaves4, leaves5]
  have hN : t.val < 32 := lt_of_lt_of_eq t.isLt (show cfg0.N = 32 from N_0)
  have hp : t.val - 1 < cfg0.N := Nat.lt_of_le_of_lt (Nat.sub_le _ _) t.isLt
  by_cases h0 : t.val % 8 = 0
  · by_cases h1 : t.val % 8 = 7
    · exfalso; omega
    · -- a first column tile
      have hc0 : cond0 (grid0.coords t) := (hcond0 t).mpr h0
      have hc1 : ¬cond1 (grid0.coords t) := fun h => h1 ((hcond1 t).mp h)
      rw [leaves6_idle m c t hc1, leaves7_idle m c t hc1, scr_first m c t h0]
      unfold step; dsimp only
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      ihave ⟨HS0, HS1⟩ := (PhiS_any m c t.val (Nat.le_of_lt t.isLt)) $$ HS
      unfold bodyAt0
      iapply (run_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM0 (Memref.isWhole_whole _) scM1 (Memref.isWhole_whole _) hc0 hc1 (xb0 m c t) (xb1 m c t) (xb2 m c t) (xb3 m c t) (xb4 m c t) (xb5 m c t) ((dats m 0 c).before 6 t d6) ((dats m 0 c).before 7 t d7) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hc0 : ¬cond0 (grid0.coords t) := fun h => h0 ((hcond0 t).mp h)
    have hz : t.val ≠ 0 := fun h => h0 (by rw [h])
    rw [PhiS_pos m c _ _ hz, scr_next m c t h0]
    unfold step; dsimp only
    by_cases h1 : t.val % 8 = 7
    · -- a last column tile
      have hc1 : cond1 (grid0.coords t) := (hcond1 t).mpr h1
      rw [leaves6_live m c t hc1, leaves7_live m c t hc1, scr_next m c t h0]
      unfold step; dsimp only
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      unfold bodyAt0
      iapply (run_last c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM0 (Memref.isWhole_whole _) scM1 (Memref.isWhole_whole _) hc0 hc1 (xb0 m c t) (xb1 m c t) (xb2 m c t) (xb3 m c t) (xb4 m c t) (xb5 m c t) (scr m c (t.val - 1) hp).1 (scr m c (t.val - 1) hp).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a column tile in between
      have hc1 : ¬cond1 (grid0.coords t) := fun h => h1 ((hcond1 t).mp h)
      rw [leaves6_idle m c t hc1, leaves7_idle m c t hc1]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      unfold bodyAt0
      iapply (run_mid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM0 (Memref.isWhole_whole _) scM1 (Memref.isWhole_whole _) hc0 hc1 (xb0 m c t) (xb1 m c t) (xb2 m c t) (xb3 m c t) (xb4 m c t) (xb5 m c t) ((dats m 0 c).before 6 t d6) ((dats m 0 c).before 7 t d7) (scr m c (t.val - 1) hp).1 (scr m c (t.val - 1) hp).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Exit.lean ====
/-
  The buffers as the region leaves them, and the arguments after the host operations that follow it.

  The region writes only its two result arrays; every other unscoped buffer is as the region found it. The nineteen host
  operations after the region read the two results and write only their own result buffers, so the two arguments of the
  program still hold what they held at launch.
-/
import proofs.«178719_j88089779241009_1_alg».proof.Proof.K.Dats

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- The two result arrays after the region. -/
abbrev res6 (c : Dev nD) : Buf (Elt F) ((c : Thread nD τ).loc main_v7_0) := (dats m 0 c).arrAt 6 cfg0.N
abbrev res7 (c : Dev nD) : Buf (Elt F) ((c : Thread nD τ).loc main_v7_1) := (dats m 0 c).arrAt 7 cfg0.N

/-- Core `c`'s buffers as the region leaves them: the two results at their final contents, the rest as found. -/
def V1 (c : Dev nD) : Valuation τ sig (Elt F) :=
  Function.update (Function.update (V0 m c) (Proc.devRef .tc main_v7_0) (res6 m c)) (Proc.devRef .tc main_v7_1) (res7 m c)

theorem V1_v7_0 (c : Dev nD) : V1 m c (Proc.devRef .tc main_v7_0) = res6 m c := by
  unfold V1
  rw [Function.update_of_ne (StableHlo.devRef_ne_of_ne (by decide)), Function.update_self]
theorem V1_v7_1 (c : Dev nD) : V1 m c (Proc.devRef .tc main_v7_1) = res7 m c := by
  unfold V1
  rw [Function.update_self]
/-- Away from the two results nothing has changed. -/
theorem V1_of_ne (c : Dev nD) (b : Ref sig .tc) (h0 : b ≠ main_v7_0) (h1 : b ≠ main_v7_1) :
    V1 m c (Proc.devRef .tc b) = V0 m c (Proc.devRef .tc b) := by
  unfold V1
  rw [Function.update_of_ne (StableHlo.devRef_ne_of_ne h1), Function.update_of_ne (StableHlo.devRef_ne_of_ne h0)]

/-- After the nineteen host operations that follow the region the two arguments hold what they held at launch. -/
theorem tail_arg0 (c : Dev nD) :
    StableHlo.after hostOps1 (V1 m c) (Proc.devRef .tc main_arg0) = m ((c : Thread nD τ).loc main_arg0) := by
  show StableHlo.after hostOps1 (V1 m c) (Proc.devRef .tc main_arg0) = _
  after_results
  rw [V1_of_ne m c main_arg0 (by decide) (by decide)]
  show StableHlo.after hostOps0 (V₀ m c) (Proc.devRef .tc main_arg0) = _
  after_results
theorem tail_arg1 (c : Dev nD) :
    StableHlo.after hostOps1 (V1 m c) (Proc.devRef .tc main_arg1) = m ((c : Thread nD τ).loc main_arg1) := by
  show StableHlo.after hostOps1 (V1 m c) (Proc.devRef .tc main_arg1) = _
  after_results
  rw [V1_of_ne m c main_arg1 (by decide) (by decide)]
  show StableHlo.after hostOps0 (V₀ m c) (Proc.devRef .tc main_arg1) = _
  after_results

end Cert.Kernel.Hand

end
-- ==== Proof.K.Launch.lean ====
/-
  The launch: @main as a host stretch, the kernel region, a host stretch.

  The eight host operations before the region run over the core's unscoped buffers; the region takes the windows'
  arrays out of them, the matrix — which two windows read — as two half shares; it gives the arrays back with the two
  results at their final contents and the halves rejoined; the nineteen host operations after it run over the unscoped
  buffers again. Every weakly fair execution therefore terminates, and the final memory holds, in every unscoped buffer,
  what the later operations compute from the buffers the region left.
-/
import proofs.«178719_j88089779241009_1_alg».proof.Proof.K.Oblig
import proofs.«178719_j88089779241009_1_alg».proof.Proof.K.Exit
import Idealize.ShloMosaic.Lib.Pipeline.Regions
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev Lv : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owing nothing. -/
abbrev Rw (c : Dev nD) : sProp 𝕄 := iprop(∃ W, owes (c : Thread nD τ) (0 : CellTallies nD τ sig Unit) W)

/-! ## The windows' arrays one by one -/

/-- The buffers behind the windows' arrays, listed: seven, the matrix once. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v6) ↦{fullShare} W main_v6) ∗ (((c : Thread nD τ).loc main_v2) ↦{fullShare} W main_v2)
          ∗ (((c : Thread nD τ).loc main_v3) ↦{fullShare} W main_v3) ∗ (((c : Thread nD τ).loc main_v4) ↦{fullShare} W main_v4)
          ∗ (((c : Thread nD τ).loc main_v5) ↦{fullShare} W main_v5) ∗ (((c : Thread nD τ).loc main_v7_0) ↦{fullShare} W main_v7_0)
          ∗ (((c : Thread nD τ).loc main_v7_1) ↦{fullShare} W main_v7_1)) := by
  unfold Pipeline.arrBufs
  exact bigSep_eq_bigSepL_of_eq [main_v6, main_v2, main_v3, main_v4, main_v5, main_v7_0, main_v7_1] (by decide) (by decide) _

/-- The pipeline's arrays, window by window: the matrix at its two halves, the others whole. -/
theorem arrays_chain (c : Dev nD) (Fn : (w : Fin cfg0.W) → Buf (Elt F) ((cfg0.win w).arr.view.loc (c : Thread nD τ))) :
    ((dats m 0 c).arrays Fn : sProp 𝕄)
      = iprop((((c : Thread nD τ).loc main_v6) ↦{fullShare.left} Fn 0) ∗ (((c : Thread nD τ).loc main_v6) ↦{fullShare.right} Fn 1)
          ∗ (((c : Thread nD τ).loc main_v2) ↦{fullShare} Fn 2) ∗ (((c : Thread nD τ).loc main_v3) ↦{fullShare} Fn 3)
          ∗ (((c : Thread nD τ).loc main_v4) ↦{fullShare} Fn 4) ∗ (((c : Thread nD τ).loc main_v5) ↦{fullShare} Fn 5)
          ∗ (((c : Thread nD τ).loc main_v7_0) ↦{fullShare} Fn 6) ∗ (((c : Thread nD τ).loc main_v7_1) ↦{fullShare} Fn 7)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]
  rfl

/-! ## The host stretches -/

theorem hostOps0_fresh : ∀ op ∈ (hostOps0 : List (HloOp τ sig (Elt F))), op.fresh = ∅ := by
  intro _ h; (repeat (cases h with | head => rfl | tail _ h => ?_)); exact nomatch h

theorem hostOps1_fresh : ∀ op ∈ (hostOps1 : List (HloOp τ sig (Elt F))), op.fresh = ∅ := by
  intro _ h; (repeat (cases h with | head => rfl | tail _ h => ?_)); exact nomatch h

/-- The eight operations before the region, over the core's unscoped buffers at their launch contents. -/
def seg0 : Pipeline.HostSeg (Name := ℕ) (U := UR sig nD τ) (pcfgs (F := F)) defs₀ Variants.none Lv lv :=
  Pipeline.HostSeg.ofOps _ _ _ _ _ (Pipeline.ucRefs τ sig) hostOps0
    (fun op h => Pipeline.sub_ucRefs op ((List.forall_iff_forall_mem.mp hostOps0_sub) op h)) hostOps0_fresh (V₀ m) Rw

/-- The nineteen operations after the region, over the core's unscoped buffers as the region leaves them. -/
def seg1 : Pipeline.HostSeg (Name := ℕ) (U := UR sig nD τ) (pcfgs (F := F)) defs₀ Variants.none Lv lv :=
  Pipeline.HostSeg.ofOps _ _ _ _ _ (Pipeline.ucRefs τ sig) hostOps1
    (fun op h => Pipeline.sub_ucRefs op ((List.forall_iff_forall_mem.mp hostOps1_sub) op h)) hostOps1_fresh (V1 m) Rw

/-! ## The region -/

/-- The entry valuation and the exit valuation read at TensorCore references. -/
abbrev V1r (c : Dev nD) (b : Ref sig .tc) : Buf (Elt F) ((c : Thread nD τ).loc b) := V1 m c (Proc.devRef .tc b)

/-- The bypassing buffers are the same at both: the region writes only its two results. -/
theorem unscopedRest_exit (c : Dev nD) :
    (Pipeline.unscopedRest (Ix := Unit) (Name := ℕ) (U := UR sig nD τ) (Lvl := ℕ) spec0 c (V1r m c) : sProp 𝕄)
      = Pipeline.unscopedRest spec0 c (V m c) := by
  unfold Pipeline.unscopedRest
  refine bigSep_congr fun b hb => ?_
  have hb' : b ∉ Finset.univ.image (Pipeline.arrRef spec0) := (Finset.mem_sdiff.mp hb).2
  rw [show V1r m c b = V m c b from V1_of_ne m c b
    (fun e => hb' (Finset.mem_image.mpr ⟨6, Finset.mem_univ _, e.symm⟩))
    (fun e => hb' (Finset.mem_image.mpr ⟨7, Finset.mem_univ _, e.symm⟩))]

set_option backward.isDefEq.respectTransparency.types false in
/-- The region: entered from what the first stretch left — the windows' arrays into the pipeline, the matrix as two
    halves, everything else bypassing —, left with the halves rejoined and the two results at their final contents. -/
def reg0 : Pipeline.RegionSeg (pcfgs (F := F)) adm (dats m) () defs₀ Variants.none Lv lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lv lv 0 fun _ _ => rfl
  pre c := iprop(StableHlo.held (c : Thread nD τ) (Pipeline.ucRefs τ sig) (StableHlo.after hostOps0 (V₀ m c)) ∗ Rw c)
  post c := iprop(StableHlo.held (c : Thread nD τ) (Pipeline.ucRefs τ sig) (V1 m c) ∗ Rw c)
  X c := iprop(emp)
  Y c := iprop(emp)
  Z c := Pipeline.unscopedRest spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs 0 winFacts₀0.arr_unscoped c (V m c), arrBufs_chain, arrays_chain]
    iintro ⟨⟨⟨Ha, Hr⟩, HO⟩, -, -⟩
    icases Ha with ⟨H6, H2, H3, H4, H5, H70, H71⟩
    ihave Hs := (pointsTo_share (PosShare.mem_left_op_right fullShare)).1 $$ H6
    icases Hs with ⟨Hl, Hrr⟩
    imodintro
    isplitl [Hl Hrr H2 H3 H4 H5 H70 H71]
    · isplitl [Hl]; · iexact Hl
      isplitl [Hrr]; · iexact Hrr
      isplitl [H2]; · iexact H2
      isplitl [H3]; · iexact H3
      isplitl [H4]; · iexact H4
      isplitl [H5]; · iexact H5
      isplitl [H70]; · iexact H70
      iexact H71
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = PhiS m c 0 (Nat.zero_le _) from rfl, PhiS_zero m c 0 _ rfl, scopedRest0_eq]
    simp only [scM0, scM1, owns_whole]
    iintro ⟨-, -, Hr⟩
    iexact Hr
  hout c := by
    rw [Pipeline.ownSems0_none, show (dats m 0 c).Φ (Fin.last cfg0.N) = PhiS m c (Fin.last cfg0.N).val (Nat.le_of_lt_succ (Fin.last cfg0.N).isLt) from rfl,
      PhiS_pos m c _ _ (by rw [Fin.val_last]; have : cfg0.N = 32 := N_0; omega), scopedRest0_eq]
    simp only [scM0, scM1, owns_whole]
    iintro ⟨H0, H1⟩
    isplitr; · iempintro
    isplitr; · iempintro
    isplitl [H0]; · iexists _; iexact H0
    iexists _; iexact H1
  hexit c := by
    rw [arrays_chain, (dats m 0 c).arrAt_in 0 rfl, (dats m 0 c).arrAt_in 1 rfl, (dats m 0 c).arrAt_in 2 rfl, (dats m 0 c).arrAt_in 3 rfl,
      (dats m 0 c).arrAt_in 4 rfl, (dats m 0 c).arrAt_in 5 rfl,
      show StableHlo.held (c : Thread nD τ) (Pipeline.ucRefs τ sig) (V1 m c) = unscopedBufs c (V1r m c) from (Pipeline.unscopedBufs_held c _).symm,
      Pipeline.unscopedBufs_split₀ cfgs 0 winFacts₀0.arr_unscoped c (V1r m c), arrBufs_chain, unscopedRest_exit]
    rw [show V1r m c main_v6 = V m c main_v6 from V1_of_ne m c main_v6 (by decide) (by decide),
      show V1r m c main_v2 = V m c main_v2 from V1_of_ne m c main_v2 (by decide) (by decide),
      show V1r m c main_v3 = V m c main_v3 from V1_of_ne m c main_v3 (by decide) (by decide),
      show V1r m c main_v4 = V m c main_v4 from V1_of_ne m c main_v4 (by decide) (by decide),
      show V1r m c main_v5 = V m c main_v5 from V1_of_ne m c main_v5 (by decide) (by decide),
      show V1r m c main_v7_0 = res6 m c from V1_v7_0 m c, show V1r m c main_v7_1 = res7 m c from V1_v7_1 m c]
    iintro ⟨Ha, HO, -, HZ⟩
    icases Ha with ⟨Hl, Hrr, H2, H3, H4, H5, H70, H71⟩
    ihave H6 := (pointsTo_share (PosShare.mem_left_op_right fullShare)).2 $$ [Hl Hrr]
    · isplitl [Hl]; · iexact Hl
      iexact Hrr
    imodintro
    isplitr [HO]
    · isplitr [HZ]
      · isplitl [H6]; · iexact H6
        isplitl [H2]; · iexact H2
        isplitl [H3]; · iexact H3
        isplitl [H4]; · iexact H4
        isplitl [H5]; · iexact H5
        isplitl [H70]; · iexact H70
        iexact H71
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ Variants.none Lv lv) := [.host (seg0 m), .region (reg0 m), .host (seg1 m)]

/-! ## The run -/

set_option backward.isDefEq.respectTransparency.types false in
/-- From any memory with zero counters every weakly fair execution of @main on the TensorCores terminates, and in the
    final memory every unscoped buffer holds what the operations after the region compute from what the region left. -/
theorem run_main : θ_run (defs (F := F)) (onTc (τ := τ) (main (F := F))) ⟨m, fun _ => 0, ρ⟩
    (fun r => ∀ c : Dev nD, ∀ b ∈ Pipeline.ucRefs τ sig, r.2.mem (c, b) = StableHlo.after hostOps1 (V1 m c) b) :=
  Pipeline.θ_run_regions_kit (pcfgs (F := F)) adm (dats m) () cellOf_inj emb₁ defs₀ Variants.none Lv lv m ρ main (segs m)
    (fun c Q => by rw [main_segs adm (dats m) () Variants.none Lv lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ Rw c))
    (Tₙ := fun c => StableHlo.held (c : Thread nD τ) (Pipeline.ucRefs τ sig) (StableHlo.after hostOps1 (V1 m c)))
    (hch := ⟨fun _ => .rfl, fun _ => .rfl, fun _ => .rfl, fun _ => .rfl⟩)
    (hinit := by
      refine Pipeline.initEach Lv lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem (c, b) = StableHlo.after hostOps1 (V1 m c) b)
    (hfin := fun c s' => by
      unfold StableHlo.held
      iintro ⟨Hh, HSI⟩
      ihave Hr := (pointsTo_read_all (Pipeline.ucRefs τ sig) (fun b => ((c, b) : Loc nD τ sig)) (StableHlo.after hostOps1 (V1 m c)) s') $$ [Hh HSI]
      · isplitl [Hh]; · iexact Hh
        iexact HSI
      icases Hr with ⟨%h, HSI⟩
      imodintro
      isplitr; · ipureintro; exact h
      iexact HSI)
    (hQ := fun _ h => h)

end Cert.Kernel.Hand

end
-- ==== Proof.Spec.lean ====
/-
  The mathematics both programs compute, stated once over the whole argument arrays at the extended reals.

  For a matrix `x` of 4096 rows and 2048 columns and a label per row: the squared norm of a row, the inner product of
  two rows, the clamped distance `sqrt (max ε (‖xᵢ‖² + ‖xⱼ‖² − 2·⟨xᵢ, xⱼ⟩))` of two rows, and per row `i` the largest
  distance to a row with the same label (`ap`) and the smallest distance to a row with another label (`an`). A row with
  the other kind of label contributes the neutral word of the fold (−∞ for the maximum, +∞ for the minimum), which is
  also where the fold starts, so the order and the grouping of the columns do not matter.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SX : Shape := ⟨2, ![4096, 2048]⟩
abbrev ST : Shape := ⟨1, ![4096]⟩

/-- The four float words the programs share, never evaluated: −∞, +∞, 2 and the clamp ε. -/
abbrev negInf : EReal := Ideal.ofBits .f32 0xFF800000#32
abbrev posInf : EReal := Ideal.ofBits .f32 0x7F800000#32
abbrev two : EReal := Ideal.ofBits .f32 0x40000000#32
abbrev eps : EReal := Ideal.ofBits .f32 0x2B8CBCCC#32

/-- The squared norm of row `i`. -/
def sq (x : FVec Ideal SX .f32) (i : Fin 4096) : EReal := ∑ k : Fin 2048, x (ix2 i k) * x (ix2 i k)

/-- The inner product of rows `i` and `j`. -/
def dot (x : FVec Ideal SX .f32) (i j : Fin 4096) : EReal := ∑ k : Fin 2048, x (ix2 i k) * x (ix2 j k)

/-- The clamped distance of rows `i` and `j`. -/
def dist (x : FVec Ideal SX .f32) (i j : Fin 4096) : EReal :=
  Ideal.sqrt (max eps ((sq x i + sq x j) - two * dot x i j))

/-- Rows `i` and `j` carry the same label. -/
abbrev same (t : IVec ST 32) (i j : Fin 4096) : Prop := t (ix1 i) = t (ix1 j)

/-- The hardest positive of row `i`: the largest distance to a row of the same label. -/
def ap (x : FVec Ideal SX .f32) (t : IVec ST 32) (i : Fin 4096) : EReal :=
  (Finset.univ : Finset (Fin 4096)).fold max negInf (fun j => if same t i j then dist x i j else negInf)

/-- The hardest negative of row `i`: the smallest distance to a row of another label. -/
def an (x : FVec Ideal SX .f32) (t : IVec ST 32) (i : Fin 4096) : EReal :=
  (Finset.univ : Finset (Fin 4096)).fold min posInf (fun j => if same t i j then posInf else dist x i j)

/-- The two per-row vectors, as arrays of 4096 entries. -/
def apVec (x : FVec Ideal SX .f32) (t : IVec ST 32) : FVec Ideal ST .f32 := fun i => ap x t (i 0)
def anVec (x : FVec Ideal SX .f32) (t : IVec ST 32) : FVec Ideal ST .f32 := fun i => an x t (i 0)

theorem apVec_apply (x : FVec Ideal SX .f32) (t : IVec ST 32) (p : Fin 4096) : apVec x t (ix1 p) = ap x t p := rfl
theorem anVec_apply (x : FVec Ideal SX .f32) (t : IVec ST 32) (p : Fin 4096) : anVec x t (ix1 p) = an x t p := rfl

/-- Column `c` of column tile `J` (eight tiles of 512 columns), and row `r` of row tile `I` (four tiles of 1024 rows). -/
def col (J : Fin 8) (c : Fin 512) : Fin 4096 := ⟨512 * J.val + c.val, by omega⟩
def row (I : Fin 4) (r : Fin 1024) : Fin 4096 := ⟨1024 * I.val + r.val, by omega⟩

end Cert.Spec

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.KI.HostVals.lean ====
/-
  What the region finds in its windows' arrays, at the extended reals, and each input block read at an index.

  The eight host operations before the region leave: the matrix itself in the array the first two windows share (the
  change of float format is the identity), its rows' squared norms as a column and as a row, and the labels as a
  column and as a row. The block of a window at grid point `t` is the part of its array at row tile `t / 8` (the row
  windows) or column tile `t % 8` (the column windows): 1024 rows from `1024 · (t / 8)`, 512 from `512 · (t % 8)`.
-/
import proofs.«178719_j88089779241009_1_alg».proof.Proof.KI.Dats
import proofs.«178719_j88089779241009_1_alg».proof.Proof.Spec
import proofs.«178719_j88089779241009_1_alg».proof.Proof.LibRowwise
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The two arguments on core `c`: the matrix and the labels. -/
abbrev xin (c : Dev nD) : FVec Ideal Cert.Spec.SX .f32 := m ((c.tc : Thread nD τ).loc main_arg0)
abbrev tin (c : Dev nD) : IVec Cert.Spec.ST 32 := m ((c.tc : Thread nD τ).loc main_arg1)

/-- Row `r` of the row tile of grid point `t`, and column `q` of its column tile, as rows of the matrix. -/
def rowOf (t : Fin cfg0.N) (r : Fin 1024) : Fin 4096 :=
  ⟨1024 * (t.val / 8) + r.val, by have := t.isLt; have h : cfg0.N = 32 := N_0; omega⟩
def colOf (t : Fin cfg0.N) (q : Fin 512) : Fin 4096 :=
  ⟨512 * (t.val % 8) + q.val, by omega⟩

/-! ## The arrays as the region finds them -/

/-- No host operation before the region writes an argument. -/
theorem args_not_written (b : Ref sig .tc) (hb : b ≠ main_v0 ∧ b ≠ main_cst ∧ b ≠ main_v1 ∧ b ≠ main_v2 ∧ b ≠ main_v3 ∧ b ≠ main_v4 ∧ b ≠ main_v5 ∧ b ≠ main_v6) :
    ∀ op ∈ (hostOps0 (F := Ideal)), Proc.devRef .tc b ∉ op.writes := by
  obtain ⟨h0, h1, h2, h3, h4, h5, h6, h7⟩ := hb
  intro op hop
  simp only [List.mem_cons, List.mem_nil_iff, or_false] at hop
  rcases hop with rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

theorem V_arg0 (c : Dev nD) : V m c main_arg0 = m ((c.tc : Thread nD τ).loc main_arg0) :=
  StableHlo.after_of_forall_not_mem (b := Proc.devRef .tc main_arg0) hostOps0 (V₀ m c) (args_not_written main_arg0 (by decide))
theorem V_arg1 (c : Dev nD) : V m c main_arg1 = m ((c.tc : Thread nD τ).loc main_arg1) :=
  StableHlo.after_of_forall_not_mem (b := Proc.devRef .tc main_arg1) hostOps0 (V₀ m c) (args_not_written main_arg1 (by decide))

/-- The shared array of the first two windows holds the matrix. -/
theorem V_v6 (c : Dev nD) (i : Fin 4096) (k : Fin 2048) :
    (V m c main_v6 : Vec Ideal S4096x2048 .bf16) (ix2 i k) = xin m c (ix2 i k) := by
  have e : (V m c main_v6 : S4096x2048.Idx → EReal) = truncf (F := Ideal) .bf16 (V₀ m c (Proc.devRef .tc main_arg0) : FVec Ideal S4096x2048 .f32) bitsLt_bf16_f32 := by
    dsimp only [V, V0]; after_results
  rw [e]
  rfl

/-- A vector of 4096 entries laid out as one row reads, at column `j`, the vector at `j`. -/
theorem asRow_apply {α : Type} (v : S4096.Idx → α) (h : S4096.ShapeCasts S1x4096) (j : Fin 4096) :
    shapeCast S1x4096 v h (ix2 0 j) = v (ix1 j) := by
  refine shapeCast_apply v h (ix2 0 j) (ix1 j) ?_
  rw [Shape.rowMajor_val_one, Shape.rowMajor_val_two]
  show j.val = (0 : Fin 1).val * 4096 + j.val
  simp

/-- The row sums of the squares: the squared norms. -/
theorem rowSumSq_apply (x : FVec Ideal S4096x2048 .f32) (i : Fin 4096) :
    Host.reduceAdd (mulf x x) (constant (F := Ideal) S_ .f32 0x00000000#32) reducesTo_S4096x2048_S4096_d1 h_S_ (ix1 i) = Cert.Spec.sq x i := by
  have h : S4096x2048.Reduces [1] S4096 := by decide
  show Ideal.hostReduceAdd reducesTo_S4096x2048_S4096_d1 (mulf x x) (Ideal.ofBits .f32 0x00000000#32) (ix1 i) = _
  rw [Ideal.hostReduceAdd_single reducesTo_S4096x2048_S4096_d1 h, Ideal.ofBits_zero_f32, zero_add]
  unfold Cert.Spec.sq
  refine Finset.sum_congr rfl fun k _ => ?_
  have ek : h.lift (ix1 i) k = ix2 i k := funext fun a => Fin.ext (by match a with | ⟨0, _⟩ => rfl | ⟨1, _⟩ => rfl)
  rw [ek]
  rfl

/-- The squared norms as a column and as a row. -/
theorem V_v2 (c : Dev nD) (i : Fin 4096) : (V m c main_v2 : Vec Ideal S4096x1 .f32) (ix2 i 0) = Cert.Spec.sq (xin m c) i := by
  have e : (V m c main_v2 : S4096x1.Idx → EReal) = shapeCast S4096x1 (Host.reduceAdd (mulf (V₀ m c (Proc.devRef .tc main_arg0) : FVec Ideal S4096x2048 .f32) (V₀ m c (Proc.devRef .tc main_arg0))) (constant (F := Ideal) S_ .f32 0x00000000#32) reducesTo_S4096x2048_S4096_d1 h_S_) shapeCasts_S4096_S4096x1 := by
    dsimp only [V, V0]; after_results; rfl
  rw [e, Cert.Lib.Rowwise.column_apply, rowSumSq_apply]
theorem V_v3 (c : Dev nD) (j : Fin 4096) : (V m c main_v3 : Vec Ideal S1x4096 .f32) (ix2 0 j) = Cert.Spec.sq (xin m c) j := by
  have e : (V m c main_v3 : S1x4096.Idx → EReal) = shapeCast S1x4096 (Host.reduceAdd (mulf (V₀ m c (Proc.devRef .tc main_arg0) : FVec Ideal S4096x2048 .f32) (V₀ m c (Proc.devRef .tc main_arg0))) (constant (F := Ideal) S_ .f32 0x00000000#32) reducesTo_S4096x2048_S4096_d1 h_S_) shapeCasts_S4096_S1x4096 := by
    dsimp only [V, V0]; after_results; rfl
  rw [e, asRow_apply, rowSumSq_apply]
/-- The labels as a column and as a row. -/
theorem V_v4 (c : Dev nD) (i : Fin 4096) : (V m c main_v4 : Vec Ideal S4096x1 .i32) (ix2 i 0) = tin m c (ix1 i) := by
  have e : (V m c main_v4 : S4096x1.Idx → BitVec 32) = shapeCast S4096x1 (V₀ m c (Proc.devRef .tc main_arg1) : IVec S4096 32) shapeCasts_S4096_S4096x1 := by
    dsimp only [V, V0]; after_results; rfl
  rw [e, Cert.Lib.Rowwise.column_apply]
theorem V_v5 (c : Dev nD) (j : Fin 4096) : (V m c main_v5 : Vec Ideal S1x4096 .i32) (ix2 0 j) = tin m c (ix1 j) := by
  have e : (V m c main_v5 : S1x4096.Idx → BitVec 32) = shapeCast S1x4096 (V₀ m c (Proc.devRef .tc main_arg1) : IVec S4096 32) shapeCasts_S4096_S1x4096 := by
    dsimp only [V, V0]; after_results; rfl
  rw [e, asRow_apply]

/-! ## The input blocks at a point -/

/-- The block indices of the six input windows over the grid: row tile `t / 8` for the row windows, column tile
    `t % 8` for the column windows, and `0` along the other axis. -/
theorem blockIdx0 : ∀ t : Fin cfg0.N, win0_0.index t (0 : Fin 2) = t.val / 8 ∧ win0_0.index t (1 : Fin 2) = 0 :=
  (by decide +kernel : ∀ t : Fin grid0.N, _)
theorem blockIdx1 : ∀ t : Fin cfg0.N, win0_1.index t (0 : Fin 2) = t.val % 8 ∧ win0_1.index t (1 : Fin 2) = 0 :=
  (by decide +kernel : ∀ t : Fin grid0.N, _)
theorem blockIdx2 : ∀ t : Fin cfg0.N, win0_2.index t (0 : Fin 2) = t.val / 8 ∧ win0_2.index t (1 : Fin 2) = 0 :=
  (by decide +kernel : ∀ t : Fin grid0.N, _)
theorem blockIdx3 : ∀ t : Fin cfg0.N, win0_3.index t (0 : Fin 2) = 0 ∧ win0_3.index t (1 : Fin 2) = t.val % 8 :=
  (by decide +kernel : ∀ t : Fin grid0.N, _)
theorem blockIdx4 : ∀ t : Fin cfg0.N, win0_4.index t (0 : Fin 2) = t.val / 8 ∧ win0_4.index t (1 : Fin 2) = 0 :=
  (by decide +kernel : ∀ t : Fin grid0.N, _)
theorem blockIdx5 : ∀ t : Fin cfg0.N, win0_5.index t (0 : Fin 2) = 0 ∧ win0_5.index t (1 : Fin 2) = t.val % 8 :=
  (by decide +kernel : ∀ t : Fin grid0.N, _)

/-- Rows `1024 · (t / 8) …` of the matrix. -/
theorem xb0_apply (c : Dev nD) (t : Fin cfg0.N) (r : Fin 1024) (k : Fin 2048) :
    xb0 m c t (ix2 r k) = xin m c (ix2 (rowOf t r) k) := by
  show (V m c main_v6 : Vec Ideal S4096x2048 .bf16) (((cfg0.win 0).blk t).view.emb (ix2 r k : S1024x2048.Idx)) = _
  have h : ((cfg0.win 0).blk t).view.emb (ix2 r k : S1024x2048.Idx) = ix2 (rowOf t r) k := by
    funext a; apply Fin.ext
    match a with
    | ⟨0, _⟩ => show win0_0.index t (0 : Fin 2) * 1024 + 1 * r.val = 1024 * (t.val / 8) + r.val; rw [(blockIdx0 t).1]; omega
    | ⟨1, _⟩ => show win0_0.index t (1 : Fin 2) * 2048 + 1 * k.val = k.val; rw [(blockIdx0 t).2]; omega
  rw [h, V_v6]
/-- Rows `512 · (t % 8) …` of the matrix. -/
theorem xb1_apply (c : Dev nD) (t : Fin cfg0.N) (q : Fin 512) (k : Fin 2048) :
    xb1 m c t (ix2 q k) = xin m c (ix2 (colOf t q) k) := by
  show (V m c main_v6 : Vec Ideal S4096x2048 .bf16) (((cfg0.win 1).blk t).view.emb (ix2 q k : S512x2048.Idx)) = _
  have h : ((cfg0.win 1).blk t).view.emb (ix2 q k : S512x2048.Idx) = ix2 (colOf t q) k := by
    funext a; apply Fin.ext
    match a with
    | ⟨0, _⟩ => show win0_1.index t (0 : Fin 2) * 512 + 1 * q.val = 512 * (t.val % 8) + q.val; rw [(blockIdx1 t).1]; omega
    | ⟨1, _⟩ => show win0_1.index t (1 : Fin 2) * 2048 + 1 * k.val = k.val; rw [(blockIdx1 t).2]; omega
  rw [h, V_v6]
/-- The squared norms of the row tile's rows, -/
theorem xb2_apply (c : Dev nD) (t : Fin cfg0.N) (r : Fin 1024) :
    xb2 m c t (ix2 r 0) = Cert.Spec.sq (xin m c) (rowOf t r) := by
  show (V m c main_v2 : Vec Ideal S4096x1 .f32) (((cfg0.win 2).blk t).view.emb (ix2 r 0 : S1024x1.Idx)) = _
  have h : ((cfg0.win 2).blk t).view.emb (ix2 r 0 : S1024x1.Idx) = ix2 (rowOf t r) 0 := by
    funext a; apply Fin.ext
    match a with
    | ⟨0, _⟩ => show win0_2.index t (0 : Fin 2) * 1024 + 1 * r.val = 1024 * (t.val / 8) + r.val; rw [(blockIdx2 t).1]; omega
    | ⟨1, _⟩ => show win0_2.index t (1 : Fin 2) * 1 + 1 * 0 = 0; rw [(blockIdx2 t).2]
  rw [h, V_v2]
/-- and of the column tile's. -/
theorem xb3_apply (c : Dev nD) (t : Fin cfg0.N) (q : Fin 512) :
    xb3 m c t (ix2 0 q) = Cert.Spec.sq (xin m c) (colOf t q) := by
  show (V m c main_v3 : Vec Ideal S1x4096 .f32) (((cfg0.win 3).blk t).view.emb (ix2 0 q : S1x512.Idx)) = _
  have h : ((cfg0.win 3).blk t).view.emb (ix2 0 q : S1x512.Idx) = ix2 0 (colOf t q) := by
    funext a; apply Fin.ext
    match a with
    | ⟨0, _⟩ => show win0_3.index t (0 : Fin 2) * 1 + 1 * 0 = 0; rw [(blockIdx3 t).1]
    | ⟨1, _⟩ => show win0_3.index t (1 : Fin 2) * 512 + 1 * q.val = 512 * (t.val % 8) + q.val; rw [(blockIdx3 t).2]; omega
  rw [h, V_v3]
/-- The labels of the row tile's rows, -/
theorem xb4_apply (c : Dev nD) (t : Fin cfg0.N) (r : Fin 1024) :
    xb4 m c t (ix2 r 0) = tin m c (ix1 (rowOf t r)) := by
  show (V m c main_v4 : Vec Ideal S4096x1 .i32) (((cfg0.win 4).blk t).view.emb (ix2 r 0 : S1024x1.Idx)) = _
  have h : ((cfg0.win 4).blk t).view.emb (ix2 r 0 : S1024x1.Idx) = ix2 (rowOf t r) 0 := by
    funext a; apply Fin.ext
    match a with
    | ⟨0, _⟩ => show win0_4.index t (0 : Fin 2) * 1024 + 1 * r.val = 1024 * (t.val / 8) + r.val; rw [(blockIdx4 t).1]; omega
    | ⟨1, _⟩ => show win0_4.index t (1 : Fin 2) * 1 + 1 * 0 = 0; rw [(blockIdx4 t).2]
  rw [h, V_v4]
/-- and of the column tile's. -/
theorem xb5_apply (c : Dev nD) (t : Fin cfg0.N) (q : Fin 512) :
    xb5 m c t (ix2 0 q) = tin m c (ix1 (colOf t q)) := by
  show (V m c main_v5 : Vec Ideal S1x4096 .i32) (((cfg0.win 5).blk t).view.emb (ix2 0 q : S1x512.Idx)) = _
  have h : ((cfg0.win 5).blk t).view.emb (ix2 0 q : S1x512.Idx) = ix2 0 (colOf t q) := by
    funext a; apply Fin.ext
    match a with
    | ⟨0, _⟩ => show win0_5.index t (0 : Fin 2) * 1 + 1 * 0 = 0; rw [(blockIdx5 t).1]
    | ⟨1, _⟩ => show win0_5.index t (1 : Fin 2) * 512 + 1 * q.val = 512 * (t.val % 8) + q.val; rw [(blockIdx5 t).2]; omega
  rw [h, V_v5]

end Cert.KernelIdeal.Hand

end
-- ==== Proof.KI.Payload.lean ====
/-
  The body's accumulator payloads read at a row, at the extended reals.

  For input blocks `x0` (1024 rows of the matrix), `x1` (512 rows of the matrix), `x2` (the 1024 rows' squared norms, a
  column), `x3` (the 512 rows' squared norms, a row), `x4`, `x5` (their labels): the point's distance of row `r` of the
  first block to row `c` of the second is `sqrt (max ε (x2 r + x3 c − 2 · ∑ₖ x0 (r, k) · x1 (c, k)))`; the running maximum
  after the point is, at row `r`, the larger of what the accumulator held and the fold of `max` from −∞ over the 512
  lanes of the distance where the labels agree (−∞ elsewhere); the running minimum likewise with `min`, +∞ and the lanes
  where they differ.
-/
import proofs.«178719_j88089779241009_1_alg».proof.Proof.Gen.KernelIdeal.Skeleton
import proofs.«178719_j88089779241009_1_alg».proof.Proof.Spec
import proofs.«178719_j88089779241009_1_alg».proof.Proof.LibRowwise
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx

/-- The point's clamped distance of row `r` of the first block to row `c` of the second. -/
def pdist (x0 : Vec Ideal S1024x2048 .bf16) (x1 : Vec Ideal S512x2048 .bf16) (x2 : Vec Ideal S1024x1 .f32) (x3 : Vec Ideal S1x512 .f32)
    (r : Fin 1024) (c : Fin 512) : EReal :=
  Ideal.sqrt (max Cert.Spec.eps ((x2 (ix2 r 0) + x3 (ix2 0 c)) - Cert.Spec.two * ∑ k : Fin 2048, x0 (ix2 r k) * x1 (ix2 c k)))

/-! ## Words and folds -/

/-- Two words compare equal exactly when they are equal. -/
theorem cmpi_eq_one_iff {w : Nat} (a b : BitVec w) : IntOp.cmpi .eq a b = 1#1 ↔ a = b := by
  show BitVec.ofBool (a == b) = 1#1 ↔ a = b
  cases hb : (a == b)
  · exact ⟨fun h => absurd h (by decide), fun h => absurd h (ne_of_beq_false hb)⟩
  · exact ⟨fun _ => eq_of_beq hb, fun _ => rfl⟩

/-- A select on the equality of two words is the `if` on it. -/
theorem select_cmpi_eq {w : Nat} {α : Type} (a b : BitVec w) (u v : α) :
    Scalar.select (IntOp.cmpi .eq a b) u v = if a = b then u else v := by
  by_cases h : a = b
  · rw [if_pos h, (cmpi_eq_one_iff a b).mpr h]
    exact select_one u v
  · rw [if_neg h, eq_zero_of_ne_one fun h1 => h ((cmpi_eq_one_iff a b).mp h1)]
    exact select_zero u v

/-- A lane minimum at row `p`: the fold of `min` from the starting word's value over the row's lanes. -/
theorem laneMin_apply {A B : Nat} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.minimumf.neutral φ hφ) (p : Fin A) :
    multiReduction .minimumf [1] ⟨1, ![A]⟩ src acc h hφ hacc (ix1 p)
      = (Finset.univ : Finset (Fin B)).fold min (Ideal.ofBits φ acc) (fun k => src (ix2 p k)) := by
  rw [multiReduction_minimumf_eq_fold]
  refine (h.fold_filter_drop_single _ _ src (ix1 p)).trans ?_
  have e : (src ∘ h.lift (ix1 p)) = fun k => src (ix2 p k) := funext fun k => congrArg src (Cert.Lib.Rowwise.lift_row h p k)
  rw [e]
  rfl

/-! ## The neutral words -/

/-- The neutral word the first column tile stores into the maximum's accumulator. -/
theorem pay3_apply (r : Fin 1024) : k0_pay3 (F := Ideal) (ix2 r 0) = Cert.Spec.negInf := by
  unfold k0_pay3
  exact congrFun (shapeCast_self _ _) (ix2 r 0)

/-- The neutral word the first column tile stores into the minimum's accumulator. -/
theorem pay4_apply (r : Fin 1024) : k0_pay4 (F := Ideal) (ix2 r 0) = Cert.Spec.posInf := by
  unfold k0_pay4
  exact congrFun (shapeCast_self _ _) (ix2 r 0)

/-! ## The distance and the label test at a point -/

/-- The product of the first block with the second's transpose, at `(r, c)`: the inner product of row `r` and row `c`. -/
theorem gram_apply (x0 : Vec Ideal S1024x2048 .bf16) (x1 : Vec Ideal S512x2048 .bf16) (r : Fin 1024) (c : Fin 512) :
    matmul (F := Ideal) (φ₁ := .bf16) (φ₂ := .bf16) dot_S1024x2048_S2048x512_S1024x512_1_0_0_1_n_n none
        (shapeCast S1024x2048 x0 shapeCasts_S1024x2048_S1024x2048)
        (transpose S2048x512 [1, 0] (shapeCast S512x2048 x1 shapeCasts_S512x2048_S512x2048) transposes_S512x2048_p1_0_S2048x512)
        (constant (F := Ideal) S1024x512 .f32 0x00000000#32) (ix2 r c)
      = ∑ k : Fin 2048, x0 (ix2 r k) * x1 (ix2 c k) := by
  rw [shapeCast_self, shapeCast_self,
    Cert.Lib.Rowwise.eq_plain dot_S1024x2048_S2048x512_S1024x512_1_0_0_1_n_n rfl rfl rfl rfl rfl rfl]
  refine (Cert.Lib.Rowwise.plain_matmul_zero_apply none _ _ r c).trans ?_
  exact Finset.sum_congr rfl fun k _ => congrArg (x0 (ix2 r k) * ·) (transpose_ix2_apply x1 _ k c)

/-- The squared norms' column broadcast along the lanes, at `(r, c)`. -/
theorem colF_apply (x2 : Vec Ideal S1024x1 .f32) (r : Fin 1024) (c : Fin 512) :
    broadcastTo S1024x512 (shapeCast S1024x1 x2 shapeCasts_S1024x1_S1024x1) broadcasts_S1024x1_S1024x512 (ix2 r c) = x2 (ix2 r 0) := by
  rw [shapeCast_self]
  exact Cert.Lib.Rowwise.columnBroadcast_apply x2 _ (by decide) r c

/-- The squared norms' row broadcast over the rows, at `(r, c)`. -/
theorem rowF_apply (x3 : Vec Ideal S1x512 .f32) (r : Fin 1024) (c : Fin 512) :
    broadcastTo S1024x512 (shapeCast S1x512 x3 shapeCasts_S1x512_S1x512) broadcasts_S1x512_S1024x512 (ix2 r c) = x3 (ix2 0 c) := by
  rw [shapeCast_self]
  exact broadcastTo_1b_ab_apply x3 _ r c

/-- The distance payload at `(r, c)`. -/
theorem pay5_apply (x0 : Vec Ideal S1024x2048 .bf16) (x1 : Vec Ideal S512x2048 .bf16) (x2 : Vec Ideal S1024x1 .f32) (x3 : Vec Ideal S1x512 .f32)
    (r : Fin 1024) (c : Fin 512) : k0_pay5 (F := Ideal) x0 x1 x2 x3 (ix2 r c) = pdist x0 x1 x2 x3 r c := by
  have e : k0_pay5 (F := Ideal) x0 x1 x2 x3 (ix2 r c)
      = Ideal.sqrt (max Cert.Spec.eps
          ((broadcastTo S1024x512 (shapeCast S1024x1 x2 shapeCasts_S1024x1_S1024x1) broadcasts_S1024x1_S1024x512 (ix2 r c)
              + broadcastTo S1024x512 (shapeCast S1x512 x3 shapeCasts_S1x512_S1x512) broadcasts_S1x512_S1024x512 (ix2 r c))
            - Cert.Spec.two * matmul (F := Ideal) (φ₁ := .bf16) (φ₂ := .bf16) dot_S1024x2048_S2048x512_S1024x512_1_0_0_1_n_n none
                (shapeCast S1024x2048 x0 shapeCasts_S1024x2048_S1024x2048)
                (transpose S2048x512 [1, 0] (shapeCast S512x2048 x1 shapeCasts_S512x2048_S512x2048) transposes_S512x2048_p1_0_S2048x512)
                (constant (F := Ideal) S1024x512 .f32 0x00000000#32) (ix2 r c))) := rfl
  rw [e, colF_apply, rowF_apply, gram_apply]
  rfl

/-- The labels' column broadcast along the lanes, at `(r, c)`. -/
theorem colI_apply (x4 : Vec Ideal S1024x1 .i32) (r : Fin 1024) (c : Fin 512) :
    broadcastTo S1024x512 (shapeCast S1024x1 x4 shapeCasts_S1024x1_S1024x1) broadcasts_S1024x1_S1024x512 (ix2 r c) = x4 (ix2 r 0) := by
  rw [shapeCast_self]
  exact Cert.Lib.Rowwise.columnBroadcast_apply x4 _ (by decide) r c

/-- The labels' row broadcast over the rows, at `(r, c)`. -/
theorem rowI_apply (x5 : Vec Ideal S1x512 .i32) (r : Fin 1024) (c : Fin 512) :
    broadcastTo S1024x512 (shapeCast S1x512 x5 shapeCasts_S1x512_S1x512) broadcasts_S1x512_S1024x512 (ix2 r c) = x5 (ix2 0 c) := by
  rw [shapeCast_self]
  exact broadcastTo_1b_ab_apply x5 _ r c

/-- The label test at `(r, c)`: the comparison of row `r`'s label with row `c`'s. -/
theorem pay6_apply (x4 : Vec Ideal S1024x1 .i32) (x5 : Vec Ideal S1x512 .i32) (r : Fin 1024) (c : Fin 512) :
    k0_pay6 (F := Ideal) x4 x5 (ix2 r c) = IntOp.cmpi .eq (x4 (ix2 r 0)) (x5 (ix2 0 c)) := by
  have e : k0_pay6 (F := Ideal) x4 x5 (ix2 r c)
      = IntOp.cmpi .eq
          (broadcastTo S1024x512 (shapeCast S1024x1 x4 shapeCasts_S1024x1_S1024x1) broadcasts_S1024x1_S1024x512 (ix2 r c))
          (broadcastTo S1024x512 (shapeCast S1x512 x5 shapeCasts_S1x512_S1x512) broadcasts_S1x512_S1024x512 (ix2 r c)) := rfl
  rw [e, colI_apply, rowI_apply]

/-! ## The lane folds and the accumulators -/

/-- The lane maximum of the masked distances, as a column, at row `r`. -/
theorem pay7_apply (x0 : Vec Ideal S1024x2048 .bf16) (x1 : Vec Ideal S512x2048 .bf16) (x2 : Vec Ideal S1024x1 .f32) (x3 : Vec Ideal S1x512 .f32)
    (x4 : Vec Ideal S1024x1 .i32) (x5 : Vec Ideal S1x512 .i32) (r : Fin 1024) :
    k0_pay7 (F := Ideal) x0 x1 x2 x3 x4 x5 (ix2 r 0)
      = (Finset.univ : Finset (Fin 512)).fold max Cert.Spec.negInf
          (fun c => if x4 (ix2 r 0) = x5 (ix2 0 c) then pdist x0 x1 x2 x3 r c else Cert.Spec.negInf) := by
  unfold k0_pay7
  refine (Cert.Lib.Rowwise.column_apply _ _ r 0).trans ?_
  refine (Cert.Lib.Rowwise.laneMax_apply _ _ _ _ _ r).trans ?_
  refine congrArg (Finset.univ.fold max Cert.Spec.negInf) (funext fun c => ?_)
  refine (select_apply _ _ _ (ix2 r c)).trans ?_
  rw [pay6_apply, pay5_apply, select_cmpi_eq]
  rfl

/-- The lane minimum of the masked distances, at row `r`. -/
theorem pay8_apply (x0 : Vec Ideal S1024x2048 .bf16) (x1 : Vec Ideal S512x2048 .bf16) (x2 : Vec Ideal S1024x1 .f32) (x3 : Vec Ideal S1x512 .f32)
    (x4 : Vec Ideal S1024x1 .i32) (x5 : Vec Ideal S1x512 .i32) (r : Fin 1024) :
    k0_pay8 (F := Ideal) x0 x1 x2 x3 x4 x5 (ix1 r)
      = (Finset.univ : Finset (Fin 512)).fold min Cert.Spec.posInf
          (fun c => if x4 (ix2 r 0) = x5 (ix2 0 c) then Cert.Spec.posInf else pdist x0 x1 x2 x3 r c) := by
  unfold k0_pay8
  refine (laneMin_apply _ _ _ _ _ r).trans ?_
  refine congrArg (Finset.univ.fold min Cert.Spec.posInf) (funext fun c => ?_)
  refine (select_apply _ _ _ (ix2 r c)).trans ?_
  rw [pay6_apply, pay5_apply, select_cmpi_eq]
  rfl

/-- The running maximum after a point, at row `r`. -/
theorem accMax_apply (x0 : Vec Ideal S1024x2048 .bf16) (x1 : Vec Ideal S512x2048 .bf16) (x2 : Vec Ideal S1024x1 .f32) (x3 : Vec Ideal S1x512 .f32)
    (x4 : Vec Ideal S1024x1 .i32) (x5 : Vec Ideal S1x512 .i32) (s : Vec Ideal S1024x1 .f32) (r : Fin 1024) :
    k0_pay1 (F := Ideal) (k0_pay7 x0 x1 x2 x3 x4 x5) s (ix2 r 0)
      = max (s (ix2 r 0)) ((Finset.univ : Finset (Fin 512)).fold max Cert.Spec.negInf
          (fun c => if x4 (ix2 r 0) = x5 (ix2 0 c) then pdist x0 x1 x2 x3 r c else Cert.Spec.negInf)) := by
  unfold k0_pay1
  refine (congrFun (shapeCast_self _ _) (ix2 r 0)).trans ?_
  refine (maximumf_apply _ _ (ix2 r 0)).trans ?_
  rw [pay7_apply]

/-- The running minimum after a point, at row `r`. -/
theorem accMin_apply (x0 : Vec Ideal S1024x2048 .bf16) (x1 : Vec Ideal S512x2048 .bf16) (x2 : Vec Ideal S1024x1 .f32) (x3 : Vec Ideal S1x512 .f32)
    (x4 : Vec Ideal S1024x1 .i32) (x5 : Vec Ideal S1x512 .i32) (s : Vec Ideal S1024x1 .f32) (r : Fin 1024) :
    k0_pay2 (F := Ideal) (k0_pay8 x0 x1 x2 x3 x4 x5) s (ix2 r 0)
      = min (s (ix2 r 0)) ((Finset.univ : Finset (Fin 512)).fold min Cert.Spec.posInf
          (fun c => if x4 (ix2 r 0) = x5 (ix2 0 c) then Cert.Spec.posInf else pdist x0 x1 x2 x3 r c)) := by
  unfold k0_pay2
  refine (congrFun (shapeCast_self _ _) (ix2 r 0)).trans ?_
  refine (minimumf_apply _ _ (ix2 r 0)).trans ?_
  rw [Cert.Lib.Rowwise.column_apply _ _ r 0, pay8_apply]

end Cert.KernelIdeal.Hand

end
-- ==== Proof.KI.Value.lean ====
/-
  What the two result arrays of the region hold, at the extended reals: per row the hardest positive and the hardest
  negative of the specification.

  Within a row tile the accumulators are restarted at the first column tile and fold in one column tile of 512 lanes per
  point; after the last of the eight they hold, at row `r`, the fold of `max` (of `min`) over all 4096 columns of the
  masked distance, started from the neutral word, whatever the grouping: that is `ap` (`an`) at that row of the matrix.
  The last point of a row tile writes exactly that block of 1024 rows back, and the four row tiles cover the array.
-/
import proofs.«178719_j88089779241009_1_alg».proof.Proof.KI.HostVals
import proofs.«178719_j88089779241009_1_alg».proof.Proof.KI.Payload
import proofs.«178719_j88089779241009_1_alg».proof.Proof.Spec
import Idealize.ShloMosaic.Lib.ValueIdx
import Mathlib.Data.Finset.Fold
import Mathlib.Order.Basic
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The masked distances of a row, and folds over one column tile -/

/-- The distance of row `i` to row `j` where their labels agree, −∞ elsewhere; -/
def gPos (x : FVec Ideal Cert.Spec.SX .f32) (tt : IVec Cert.Spec.ST 32) (i j : Fin 4096) : EReal :=
  if Cert.Spec.same tt i j then Cert.Spec.dist x i j else Cert.Spec.negInf
/-- and where they differ, +∞ elsewhere. -/
def gNeg (x : FVec Ideal Cert.Spec.SX .f32) (tt : IVec Cert.Spec.ST 32) (i j : Fin 4096) : EReal :=
  if Cert.Spec.same tt i j then Cert.Spec.posInf else Cert.Spec.dist x i j

/-- A fold of `max` over the columns of one point's column tile is below `z` exactly when its start and every column
    of the tile are. -/
theorem tileMax_le (g : Fin 4096 → EReal) (b z : EReal) (t : Fin cfg0.N) :
    (Finset.univ : Finset (Fin 512)).fold max b (fun q => g (colOf t q)) ≤ z
      ↔ b ≤ z ∧ ∀ j : Fin 4096, 512 * (t.val % 8) ≤ j.val → j.val < 512 * (t.val % 8 + 1) → g j ≤ z := by
  rw [Finset.fold_max_le]
  refine and_congr_right fun _ => ⟨fun h j h1 h2 => ?_, fun h q _ => h _ ?_ ?_⟩
  · have e : colOf t ⟨j.val - 512 * (t.val % 8), by omega⟩ = j := Fin.ext (by show 512 * (t.val % 8) + (j.val - 512 * (t.val % 8)) = j.val; omega)
    exact e ▸ h ⟨j.val - 512 * (t.val % 8), by omega⟩ (Finset.mem_univ _)
  · show 512 * (t.val % 8) ≤ 512 * (t.val % 8) + q.val; omega
  · show 512 * (t.val % 8) + q.val < 512 * (t.val % 8 + 1); omega

/-- Dually for `min`. -/
theorem le_tileMin (g : Fin 4096 → EReal) (b z : EReal) (t : Fin cfg0.N) :
    z ≤ (Finset.univ : Finset (Fin 512)).fold min b (fun q => g (colOf t q))
      ↔ z ≤ b ∧ ∀ j : Fin 4096, 512 * (t.val % 8) ≤ j.val → j.val < 512 * (t.val % 8 + 1) → z ≤ g j := by
  rw [Finset.le_fold_min]
  refine and_congr_right fun _ => ⟨fun h j h1 h2 => ?_, fun h q _ => h _ ?_ ?_⟩
  · have e : colOf t ⟨j.val - 512 * (t.val % 8), by omega⟩ = j := Fin.ext (by show 512 * (t.val % 8) + (j.val - 512 * (t.val % 8)) = j.val; omega)
    exact e ▸ h ⟨j.val - 512 * (t.val % 8), by omega⟩ (Finset.mem_univ _)
  · show 512 * (t.val % 8) ≤ 512 * (t.val % 8) + q.val; omega
  · show 512 * (t.val % 8) + q.val < 512 * (t.val % 8 + 1); omega

/-! ## One point's update, in the matrix's own rows -/

/-- The point's distance of block rows `r` and `q` is the specification's distance of their rows of the matrix. -/
theorem pdist_blocks (c : Dev nD) (t : Fin cfg0.N) (r : Fin 1024) (q : Fin 512) :
    pdist (xb0 m c t) (xb1 m c t) (xb2 m c t) (xb3 m c t) r q = Cert.Spec.dist (xin m c) (rowOf t r) (colOf t q) := by
  unfold pdist Cert.Spec.dist Cert.Spec.dot
  rw [xb2_apply, xb3_apply]
  simp only [xb0_apply, xb1_apply]

/-- The maximum's update at a point: the larger of what was there and the fold over the point's column tile. -/
theorem step_max_apply (c : Dev nD) (t : Fin cfg0.N) (s : Vec Ideal S1024x1 .f32 × Vec Ideal S1024x1 .f32) (r : Fin 1024) :
    (step m c t s).1 (ix2 r 0)
      = max (s.1 (ix2 r 0)) ((Finset.univ : Finset (Fin 512)).fold max Cert.Spec.negInf
          (fun q => gPos (xin m c) (tin m c) (rowOf t r) (colOf t q))) := by
  refine (accMax_apply _ _ _ _ _ _ s.1 r).trans ?_
  refine congrArg (max (s.1 (ix2 r 0))) (congrArg (Finset.univ.fold max Cert.Spec.negInf) (funext fun q => ?_))
  rw [xb4_apply, xb5_apply, pdist_blocks]
  rfl

/-- The minimum's update at a point. -/
theorem step_min_apply (c : Dev nD) (t : Fin cfg0.N) (s : Vec Ideal S1024x1 .f32 × Vec Ideal S1024x1 .f32) (r : Fin 1024) :
    (step m c t s).2 (ix2 r 0)
      = min (s.2 (ix2 r 0)) ((Finset.univ : Finset (Fin 512)).fold min Cert.Spec.posInf
          (fun q => gNeg (xin m c) (tin m c) (rowOf t r) (colOf t q))) := by
  refine (accMin_apply _ _ _ _ _ _ s.2 r).trans ?_
  refine congrArg (min (s.2 (ix2 r 0))) (congrArg (Finset.univ.fold min Cert.Spec.posInf) (funext fun q => ?_))
  rw [xb4_apply, xb5_apply, pdist_blocks]
  rfl

/-- The two updates over the neutral words, as at the first column tile of a row tile. -/
theorem step_max_first (c : Dev nD) (t : Fin cfg0.N) (r : Fin 1024) :
    (step m c t (k0_pay3 (F := Ideal), k0_pay4 (F := Ideal))).1 (ix2 r 0)
      = max Cert.Spec.negInf ((Finset.univ : Finset (Fin 512)).fold max Cert.Spec.negInf
          (fun q => gPos (xin m c) (tin m c) (rowOf t r) (colOf t q))) := by
  rw [step_max_apply]
  exact congrArg (max · _) (pay3_apply r)
theorem step_min_first (c : Dev nD) (t : Fin cfg0.N) (r : Fin 1024) :
    (step m c t (k0_pay3 (F := Ideal), k0_pay4 (F := Ideal))).2 (ix2 r 0)
      = min Cert.Spec.posInf ((Finset.univ : Finset (Fin 512)).fold min Cert.Spec.posInf
          (fun q => gNeg (xin m c) (tin m c) (rowOf t r) (colOf t q))) := by
  rw [step_min_apply]
  exact congrArg (min · _) (pay4_apply r)

/-- Within a row tile the row of the matrix a block row stands for does not move. -/
theorem rowOf_succ (n : ℕ) (hn : n + 1 < cfg0.N) (h : ¬(n + 1) % 8 = 0) (r : Fin 1024) :
    rowOf ⟨n, Nat.lt_of_succ_lt hn⟩ r = rowOf ⟨n + 1, hn⟩ r :=
  Fin.ext (by show 1024 * (n / 8) + r.val = 1024 * ((n + 1) / 8) + r.val; omega)

/-! ## The accumulators along a row tile -/

/-- After the point at position `n` the maximum's accumulator is, at row `r`, the least upper bound of −∞ and the
    masked distances to the columns of the column tiles up to the point's. -/
theorem scr_max_le (c : Dev nD) : ∀ (n : ℕ) (hn : n < cfg0.N) (r : Fin 1024) (z : EReal),
    (scr m c n hn).1 (ix2 r 0) ≤ z
      ↔ Cert.Spec.negInf ≤ z ∧ ∀ j : Fin 4096, j.val < 512 * (n % 8 + 1) → gPos (xin m c) (tin m c) (rowOf ⟨n, hn⟩ r) j ≤ z := by
  intro n
  induction n with
  | zero =>
    intro hn r z
    rw [show scr m c 0 hn = step m c ⟨0, hn⟩ (k0_pay3 (F := Ideal), k0_pay4 (F := Ideal)) from rfl, step_max_first,
      max_le_iff, tileMax_le]
    constructor
    · rintro ⟨h0, -, h⟩
      exact ⟨h0, fun j hj => h j (by show 512 * (0 % 8) ≤ j.val; omega) (by show j.val < 512 * (0 % 8 + 1); omega)⟩
    · rintro ⟨h0, h⟩
      exact ⟨h0, h0, fun j _ hj => h j (by have : j.val < 512 * (0 % 8 + 1) := hj; omega)⟩
  | succ n ih =>
    intro hn r z
    by_cases h8 : (n + 1) % 8 = 0
    · rw [show scr m c (n + 1) hn = step m c ⟨n + 1, hn⟩ (k0_pay3 (F := Ideal), k0_pay4 (F := Ideal)) from if_pos h8, step_max_first, max_le_iff, tileMax_le]
      constructor
      · rintro ⟨h0, -, h⟩
        exact ⟨h0, fun j hj => h j (by show 512 * ((n + 1) % 8) ≤ j.val; omega) (by show j.val < 512 * ((n + 1) % 8 + 1); omega)⟩
      · rintro ⟨h0, h⟩
        exact ⟨h0, h0, fun j _ hj => h j (by have : j.val < 512 * ((n + 1) % 8 + 1) := hj; omega)⟩
    · rw [show scr m c (n + 1) hn = step m c ⟨n + 1, hn⟩ (scr m c n (Nat.lt_of_succ_lt hn)) from if_neg h8, step_max_apply,
        max_le_iff, tileMax_le, ih (Nat.lt_of_succ_lt hn) r z, rowOf_succ n hn h8 r]
      constructor
      · rintro ⟨⟨h0, hlo⟩, -, hhi⟩
        refine ⟨h0, fun j hj => ?_⟩
        by_cases hj' : j.val < 512 * (n % 8 + 1)
        · exact hlo j hj'
        · exact hhi j (by show 512 * ((n + 1) % 8) ≤ j.val; omega) hj
      · rintro ⟨h0, h⟩
        exact ⟨⟨h0, fun j hj => h j (by omega)⟩, h0, fun j _ hj => h j hj⟩

/-- Dually the minimum's accumulator is the greatest lower bound of +∞ and those masked distances. -/
theorem le_scr_min (c : Dev nD) : ∀ (n : ℕ) (hn : n < cfg0.N) (r : Fin 1024) (z : EReal),
    z ≤ (scr m c n hn).2 (ix2 r 0)
      ↔ z ≤ Cert.Spec.posInf ∧ ∀ j : Fin 4096, j.val < 512 * (n % 8 + 1) → z ≤ gNeg (xin m c) (tin m c) (rowOf ⟨n, hn⟩ r) j := by
  intro n
  induction n with
  | zero =>
    intro hn r z
    rw [show scr m c 0 hn = step m c ⟨0, hn⟩ (k0_pay3 (F := Ideal), k0_pay4 (F := Ideal)) from rfl, step_min_first,
      le_min_iff, le_tileMin]
    constructor
    · rintro ⟨h0, -, h⟩
      exact ⟨h0, fun j hj => h j (by show 512 * (0 % 8) ≤ j.val; omega) (by show j.val < 512 * (0 % 8 + 1); omega)⟩
    · rintro ⟨h0, h⟩
      exact ⟨h0, h0, fun j _ hj => h j (by have : j.val < 512 * (0 % 8 + 1) := hj; omega)⟩
  | succ n ih =>
    intro hn r z
    by_cases h8 : (n + 1) % 8 = 0
    · rw [show scr m c (n + 1) hn = step m c ⟨n + 1, hn⟩ (k0_pay3 (F := Ideal), k0_pay4 (F := Ideal)) from if_pos h8, step_min_first, le_min_iff, le_tileMin]
      constructor
      · rintro ⟨h0, -, h⟩
        exact ⟨h0, fun j hj => h j (by show 512 * ((n + 1) % 8) ≤ j.val; omega) (by show j.val < 512 * ((n + 1) % 8 + 1); omega)⟩
      · rintro ⟨h0, h⟩
        exact ⟨h0, h0, fun j _ hj => h j (by have : j.val < 512 * ((n + 1) % 8 + 1) := hj; omega)⟩
    · rw [show scr m c (n + 1) hn = step m c ⟨n + 1, hn⟩ (scr m c n (Nat.lt_of_succ_lt hn)) from if_neg h8, step_min_apply,
        le_min_iff, le_tileMin, ih (Nat.lt_of_succ_lt hn) r z, rowOf_succ n hn h8 r]
      constructor
      · rintro ⟨⟨h0, hlo⟩, -, hhi⟩
        refine ⟨h0, fun j hj => ?_⟩
        by_cases hj' : j.val < 512 * (n % 8 + 1)
        · exact hlo j hj'
        · exact hhi j (by show 512 * ((n + 1) % 8) ≤ j.val; omega) hj
      · rintro ⟨h0, h⟩
        exact ⟨⟨h0, fun j hj => h j (by omega)⟩, h0, fun j _ hj => h j hj⟩

/-- At the last column tile of a row tile the maximum's accumulator holds the rows' hardest positives. -/
theorem scr_last_max (c : Dev nD) (t : Fin cfg0.N) (h : t.val % 8 = 7) (r : Fin 1024) :
    (scr m c t.val t.isLt).1 (ix2 r 0) = Cert.Spec.ap (xin m c) (tin m c) (rowOf t r) := by
  refine eq_of_forall_ge_iff fun z => ?_
  rw [scr_max_le m c t.val t.isLt r z]
  show _ ↔ (Finset.univ : Finset (Fin 4096)).fold max Cert.Spec.negInf (gPos (xin m c) (tin m c) (rowOf t r)) ≤ z
  rw [Finset.fold_max_le]
  exact and_congr_right fun _ => ⟨fun hh j _ => hh j (by have := j.isLt; omega), fun hh j _ => hh j (Finset.mem_univ _)⟩

/-- At the last column tile of a row tile the minimum's accumulator holds the rows' hardest negatives. -/
theorem scr_last_min (c : Dev nD) (t : Fin cfg0.N) (h : t.val % 8 = 7) (r : Fin 1024) :
    (scr m c t.val t.isLt).2 (ix2 r 0) = Cert.Spec.an (xin m c) (tin m c) (rowOf t r) := by
  refine eq_of_forall_le_iff fun z => ?_
  rw [le_scr_min m c t.val t.isLt r z]
  show _ ↔ z ≤ (Finset.univ : Finset (Fin 4096)).fold min Cert.Spec.posInf (gNeg (xin m c) (tin m c) (rowOf t r))
  rw [Finset.le_fold_min]
  exact and_congr_right fun _ => ⟨fun hh j _ => hh j (by have := j.isLt; omega), fun hh j _ => hh j (Finset.mem_univ _)⟩

/-! ## From the last points' blocks to the two result arrays -/

/-- What the first result array ends holding: per row the hardest positive; -/
def apCol (x : FVec Ideal Cert.Spec.SX .f32) (tt : IVec Cert.Spec.ST 32) : S4096x1.Idx → Elt Ideal .f32 :=
  fun y => Cert.Spec.ap x tt ⟨(y 0).val, idx2_lt0 y⟩
/-- and the second: per row the hardest negative. -/
def anCol (x : FVec Ideal Cert.Spec.SX .f32) (tt : IVec Cert.Spec.ST 32) : S4096x1.Idx → Elt Ideal .f32 :=
  fun y => Cert.Spec.an x tt ⟨(y 0).val, idx2_lt0 y⟩

/-- The two result windows' index maps over the grid: block row `t / 8`, block column 0. -/
theorem outIdx6 : ∀ t : Fin cfg0.N, win0_6.index t (0 : Fin 2) = t.val / 8 ∧ win0_6.index t (1 : Fin 2) = 0 :=
  (by decide +kernel : ∀ t : Fin grid0.N, win0_6.index t (0 : Fin 2) = t.val / 8 ∧ win0_6.index t (1 : Fin 2) = 0)
theorem outIdx7 : ∀ t : Fin cfg0.N, win0_7.index t (0 : Fin 2) = t.val / 8 ∧ win0_7.index t (1 : Fin 2) = 0 :=
  (by decide +kernel : ∀ t : Fin grid0.N, win0_7.index t (0 : Fin 2) = t.val / 8 ∧ win0_7.index t (1 : Fin 2) = 0)

/-- What a last point of a row tile writes back to the first result array is its block of `apCol`. -/
theorem flushed6_eq (c : Dev nD) (t : Fin cfg0.N) (hf : (cfg0.win 6).flush t = true) :
    (dats m 0 c).flushed 6 t = ((cfg0.win 6).blk t).view.read (Elt Ideal) (apCol (xin m c) (tin m c)) := by
  have h7 : t.val % 8 = 7 := (flush0_6 t).mp hf
  show (cfg0.win 6).cut (grid0.coords t) ((dats m 0 c).after 6 t) = _
  rw [after6]
  refine funext fun (j : S1024x1.Idx) => ?_
  obtain ⟨r, u, rfl⟩ : ∃ (r : Fin 1024) (u : Fin 1), j = ix2 r u := ⟨j 0, j 1, eq_ix2 j⟩
  obtain rfl : u = 0 := Subsingleton.elim _ _
  show (scr m c t.val t.isLt).1 (ix2 r 0) = apCol (xin m c) (tin m c) (((cfg0.win 6).blk t).view.emb (ix2 r 0))
  rw [scr_last_max m c t h7 r]
  refine congrArg (Cert.Spec.ap (xin m c) (tin m c)) (Fin.ext ?_)
  show 1024 * (t.val / 8) + r.val = win0_6.index t (0 : Fin 2) * 1024 + 1 * r.val
  rw [(outIdx6 t).1]
  omega

theorem flushed7_eq (c : Dev nD) (t : Fin cfg0.N) (hf : (cfg0.win 7).flush t = true) :
    (dats m 0 c).flushed 7 t = ((cfg0.win 7).blk t).view.read (Elt Ideal) (anCol (xin m c) (tin m c)) := by
  have h7 : t.val % 8 = 7 := (flush0_7 t).mp hf
  show (cfg0.win 7).cut (grid0.coords t) ((dats m 0 c).after 7 t) = _
  rw [after7]
  refine funext fun (j : S1024x1.Idx) => ?_
  obtain ⟨r, u, rfl⟩ : ∃ (r : Fin 1024) (u : Fin 1), j = ix2 r u := ⟨j 0, j 1, eq_ix2 j⟩
  obtain rfl : u = 0 := Subsingleton.elim _ _
  show (scr m c t.val t.isLt).2 (ix2 r 0) = anCol (xin m c) (tin m c) (((cfg0.win 7).blk t).view.emb (ix2 r 0))
  rw [scr_last_min m c t h7 r]
  refine congrArg (Cert.Spec.an (xin m c) (tin m c)) (Fin.ext ?_)
  show 1024 * (t.val / 8) + r.val = win0_7.index t (0 : Fin 2) * 1024 + 1 * r.val
  rw [(outIdx7 t).1]
  omega

/-- An index of a result array is in point `t`'s block iff each coordinate is in the block's range on its axis. -/
theorem mem_blk6 (t : Fin cfg0.N) (i : S4096x1.Idx) :
    i ∈ ((cfg0.win 6).blk t).view.set
      ↔ ∀ a : Fin 2, win0_6.index t a * S1024x1.size a ≤ (i a).val ∧ (i a).val < win0_6.index t a * S1024x1.size a + S1024x1.size a := by
  show i ∈ ((View.whole main_v7_0).slice (win0_6.rect t)).set ↔ _
  rw [View.set_slice_whole, Rect.mem_set_unit]
  exact Iff.rfl
theorem mem_blk7 (t : Fin cfg0.N) (i : S4096x1.Idx) :
    i ∈ ((cfg0.win 7).blk t).view.set
      ↔ ∀ a : Fin 2, win0_7.index t a * S1024x1.size a ≤ (i a).val ∧ (i a).val < win0_7.index t a * S1024x1.size a + S1024x1.size a := by
  show i ∈ ((View.whole main_v7_1).slice (win0_7.rect t)).set ↔ _
  rw [View.set_slice_whole, Rect.mem_set_unit]
  exact Iff.rfl

/-- Row `i` of a result array lies in the block the last point of its row tile writes back. -/
theorem cover6 (i : S4096x1.Idx) : ∃ t : Fin cfg0.N, (cfg0.win 6).flush t = true ∧ i ∈ ((cfg0.win 6).blk t).view.set := by
  have hi0 : (i 0).val < 4096 := idx2_lt0 i
  have hi1 : (i 1).val < 1 := idx2_lt1 i
  have hN : cfg0.N = 32 := N_0
  have ht : 8 * ((i 0).val / 1024) + 7 < cfg0.N := by omega
  refine ⟨⟨8 * ((i 0).val / 1024) + 7, ht⟩, (flush0_6 _).mpr (by show (8 * ((i 0).val / 1024) + 7) % 8 = 7; omega), ?_⟩
  rw [mem_blk6]
  obtain ⟨e0, e1⟩ := outIdx6 ⟨8 * ((i 0).val / 1024) + 7, ht⟩
  have e0' : win0_6.index ⟨8 * ((i 0).val / 1024) + 7, ht⟩ (0 : Fin 2) = (i 0).val / 1024 := by
    rw [e0]; show (8 * ((i 0).val / 1024) + 7) / 8 = (i 0).val / 1024; omega
  intro a
  match a with
  | ⟨0, _⟩ =>
    show win0_6.index ⟨8 * ((i 0).val / 1024) + 7, ht⟩ (0 : Fin 2) * 1024 ≤ (i 0).val
      ∧ (i 0).val < win0_6.index ⟨8 * ((i 0).val / 1024) + 7, ht⟩ (0 : Fin 2) * 1024 + 1024
    rw [e0']; omega
  | ⟨1, _⟩ =>
    show win0_6.index ⟨8 * ((i 0).val / 1024) + 7, ht⟩ (1 : Fin 2) * 1 ≤ (i 1).val
      ∧ (i 1).val < win0_6.index ⟨8 * ((i 0).val / 1024) + 7, ht⟩ (1 : Fin 2) * 1 + 1
    rw [e1]; omega
theorem cover7 (i : S4096x1.Idx) : ∃ t : Fin cfg0.N, (cfg0.win 7).flush t = true ∧ i ∈ ((cfg0.win 7).blk t).view.set := by
  have hi0 : (i 0).val < 4096 := idx2_lt0 i
  have hi1 : (i 1).val < 1 := idx2_lt1 i
  have hN : cfg0.N = 32 := N_0
  have ht : 8 * ((i 0).val / 1024) + 7 < cfg0.N := by omega
  refine ⟨⟨8 * ((i 0).val / 1024) + 7, ht⟩, (flush0_7 _).mpr (by show (8 * ((i 0).val / 1024) + 7) % 8 = 7; omega), ?_⟩
  rw [mem_blk7]
  obtain ⟨e0, e1⟩ := outIdx7 ⟨8 * ((i 0).val / 1024) + 7, ht⟩
  have e0' : win0_7.index ⟨8 * ((i 0).val / 1024) + 7, ht⟩ (0 : Fin 2) = (i 0).val / 1024 := by
    rw [e0]; show (8 * ((i 0).val / 1024) + 7) / 8 = (i 0).val / 1024; omega
  intro a
  match a with
  | ⟨0, _⟩ =>
    show win0_7.index ⟨8 * ((i 0).val / 1024) + 7, ht⟩ (0 : Fin 2) * 1024 ≤ (i 0).val
      ∧ (i 0).val < win0_7.index ⟨8 * ((i 0).val / 1024) + 7, ht⟩ (0 : Fin 2) * 1024 + 1024
    rw [e0']; omega
  | ⟨1, _⟩ =>
    show win0_7.index ⟨8 * ((i 0).val / 1024) + 7, ht⟩ (1 : Fin 2) * 1 ≤ (i 1).val
      ∧ (i 1).val < win0_7.index ⟨8 * ((i 0).val / 1024) + 7, ht⟩ (1 : Fin 2) * 1 + 1
    rw [e1]; omega

/-- The first result array after the region, row by row. -/
theorem out6 (c : Dev nD) (i : Fin 4096) :
    ((dats m 0 c).arrAt 6 cfg0.N : Vec Ideal S4096x1 .f32) (ix2 i 0) = Cert.Spec.ap (xin m c) (tin m c) i := by
  exact congrFun ((dats m 0 c).arrAt_eq_of_cover 6 (apCol (xin m c) (tin m c)) (fun t hf => flushed6_eq m c t hf) cover6) (ix2 i 0)

/-- The second result array after the region, row by row. -/
theorem out7 (c : Dev nD) (i : Fin 4096) :
    ((dats m 0 c).arrAt 7 cfg0.N : Vec Ideal S4096x1 .f32) (ix2 i 0) = Cert.Spec.an (xin m c) (tin m c) i := by
  exact congrFun ((dats m 0 c).arrAt_eq_of_cover 7 (anCol (xin m c) (tin m c)) (fun t hf => flushed7_eq m c t hf) cover7) (ix2 i 0)

/-- Flattened to 4096 entries, the two result arrays are the specification's vectors. -/
theorem flat6 (c : Dev nD) :
    shapeCast S4096 ((dats m 0 c).arrAt 6 cfg0.N : Vec Ideal S4096x1 .f32) shapeCasts_S4096x1_S4096 = Cert.Spec.apVec (xin m c) (tin m c) := by
  funext i
  obtain ⟨p, rfl⟩ : ∃ p : Fin 4096, i = ix1 p := ⟨i 0, eq_ix1 i⟩
  rw [Cert.Spec.apVec_apply, ← out6 m c p]
  refine shapeCast_apply _ _ (ix1 p) (ix2 p 0) ?_
  rw [Shape.rowMajor_val_one, Shape.rowMajor_val_two]
  show p.val * 1 + 0 = p.val
  omega

theorem flat7 (c : Dev nD) :
    shapeCast S4096 ((dats m 0 c).arrAt 7 cfg0.N : Vec Ideal S4096x1 .f32) shapeCasts_S4096x1_S4096 = Cert.Spec.anVec (xin m c) (tin m c) := by
  funext i
  obtain ⟨p, rfl⟩ : ∃ p : Fin 4096, i = ix1 p := ⟨i 0, eq_ix1 i⟩
  rw [Cert.Spec.anVec_apply, ← out7 m c p]
  refine shapeCast_apply _ _ (ix1 p) (ix2 p 0) ?_
  rw [Shape.rowMajor_val_one, Shape.rowMajor_val_two]
  show p.val * 1 + 0 = p.val
  omega

end Cert.KernelIdeal.Hand

end
-- ==== Proof.Tail.lean ====
/-
  The host operations both programs apply to the per-row hardest positive `ap` and hardest negative `an`
  (two vectors of 4096 entries): the loss `mean (max (ap − an + 0.3) 0)` and the precision `mean [an > ap]`, each a sum
  from zero divided by 4096. Both programs print the same operations with the same words, so the tail is carried as
  one function of `(ap, an)` and never opened.
-/
import Idealize.ShloMosaic.PureOps.Ideal
import Idealize.ShloMosaic.PureOps
import Idealize.ShloMosaic.Lib.StableHlo

noncomputable section

namespace Cert.Tail

open Idealize.ShloMosaic

abbrev S4096 : Shape := ⟨1, ![4096]⟩
abbrev S_ : Shape := ⟨0, ![]⟩

variable (hb : S_.BroadcastsInDim S4096 (![] : Fin 0 → Fin S4096.rank)) (hr : S4096.ReducesTo [0] S_) (h0 : 0 < S_.numel)

/-- `mean (max (ap − an + 0.3) 0)`. -/
def loss (ap an : FVec Ideal S4096 .f32) : FVec Ideal S_ .f32 :=
  Host.divf (F := Ideal)
    (Host.reduceAdd (F := Ideal)
      (maximumf (addf (subf ap an) (broadcastInDim S4096 ![] hb (constant (F := Ideal) S_ .f32 0x3E99999A#32)))
        (broadcastInDim S4096 ![] hb (constant (F := Ideal) S_ .f32 0x00000000#32)))
      (constant (F := Ideal) S_ .f32 0x00000000#32) hr h0)
    (constant (F := Ideal) S_ .f32 0x45800000#32)

/-- `mean [an > ap]`. -/
def prec (ap an : FVec Ideal S4096 .f32) : FVec Ideal S_ .f32 :=
  Host.divf (F := Ideal)
    (Host.reduceAdd (F := Ideal) (uitofp (F := Ideal) .f32 (cmpf (F := Ideal) .ogt an ap))
      (constant (F := Ideal) S_ .f32 0x00000000#32) hr h0)
    (constant (F := Ideal) S_ .f32 0x45800000#32)

end Cert.Tail

end
-- ==== Proof.KI.TailVals.lean ====
/-
  The kernel program's two results at the extended reals: the shared tail of the two result arrays of the region,
  flattened to 4096 entries each.
-/
import proofs.«178719_j88089779241009_1_alg».proof.Proof.KI.Exit
import proofs.«178719_j88089779241009_1_alg».proof.Proof.Tail
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ)

/-- The first result: the loss of the two flattened result arrays. -/
theorem tail_loss (c : Dev nD) :
    StableHlo.after hostOps1 (V1 m c) (Proc.devRef .tc main_v16)
      = Cert.Tail.loss bcast_S_S4096 reducesTo_S4096_S_d0 h_S_
          (shapeCast S4096 (res6 m c : Vec Ideal S4096x1 .f32) shapeCasts_S4096x1_S4096)
          (shapeCast S4096 (res7 m c : Vec Ideal S4096x1 .f32) shapeCasts_S4096x1_S4096) := by
  show StableHlo.after hostOps1 (V1 m c) (Proc.devRef .tc main_v16) = _
  after_results
  rw [V1_v7_0, V1_v7_1]
  unfold Cert.Tail.loss
  rfl

/-- The second result: the precision of the two flattened result arrays. -/
theorem tail_prec (c : Dev nD) :
    StableHlo.after hostOps1 (V1 m c) (Proc.devRef .tc main_v20)
      = Cert.Tail.prec reducesTo_S4096_S_d0 h_S_
          (shapeCast S4096 (res6 m c : Vec Ideal S4096x1 .f32) shapeCasts_S4096x1_S4096)
          (shapeCast S4096 (res7 m c : Vec Ideal S4096x1 .f32) shapeCasts_S4096x1_S4096) := by
  show StableHlo.after hostOps1 (V1 m c) (Proc.devRef .tc main_v20) = _
  after_results
  rw [V1_v7_0, V1_v7_1]
  unfold Cert.Tail.prec
  rfl

end Cert.KernelIdeal.Hand

end
-- ==== Proof.RefValue.lean ====
/-
  The reference program's two results at the extended reals, read off its run.

  The reference builds the whole 4096 × 4096 matrix of clamped distances `sqrt (max ε (‖xᵢ‖² + ‖xⱼ‖² − 2·⟨xᵢ, xⱼ⟩))`,
  masks it by label equality with −∞ (for the row maximum) or +∞ (for the row minimum), reduces each row, and applies the
  shared tail to the two vectors. Read at a row, the two reductions are the specification's `ap` and `an`.
-/
import proofs.«178719_j88089779241009_1_alg».proof.Proof.Gen.ReferenceIdeal.Run
import proofs.«178719_j88089779241009_1_alg».proof.Proof.Gen.ReferenceIdeal.Read
import proofs.«178719_j88089779241009_1_alg».proof.Proof.Spec
import proofs.«178719_j88089779241009_1_alg».proof.Proof.Tail
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The two argument arrays' types: the matrix of rows and the vector of labels. -/
abbrev X0 := (⟨S4096x2048, .f32⟩ : BufTy).Contents (Elt Ideal)
abbrev X1 := (⟨S4096, .i32⟩ : BufTy).Contents (Elt Ideal)

/-! ### The composed index functions at a point -/

theorem idx_v1 (p : Fin 4096) (k : Fin 2048) : idx_main_v1 (ix1 p) k = ix2 p k :=
  funext fun a => Fin.ext (by match a with | ⟨0, _⟩ => rfl | ⟨1, _⟩ => rfl)

theorem idx_v2_v4 (p j : Fin 4096) : idx_main_v2 (idx_main_v4 (ix2 p j)) = ix1 p :=
  funext fun a => Fin.ext (by match a with | ⟨0, _⟩ => rfl)

theorem idx_v3_v5 (p j : Fin 4096) : idx_main_v3 (idx_main_v5 (ix2 p j)) = ix1 j :=
  funext fun a => Fin.ext (by match a with | ⟨0, _⟩ => rfl)

theorem lidx_v8 (p j : Fin 4096) (k : Fin 2048) : lidx_main_v8 (ix2 p j) k = ix2 p k :=
  funext fun a => Fin.ext (by match a with | ⟨0, _⟩ => rfl | ⟨1, _⟩ => rfl)

theorem idx_v7_ridx_v8 (p j : Fin 4096) (k : Fin 2048) : idx_main_v7 (ridx_main_v8 (ix2 p j) k) = ix2 j k :=
  funext fun a => Fin.ext (by match a with | ⟨0, _⟩ => rfl | ⟨1, _⟩ => rfl)

theorem idx_v14_v16 (p j : Fin 4096) : idx_main_v14 (idx_main_v16 (ix2 p j)) = ix1 p :=
  funext fun a => Fin.ext (by match a with | ⟨0, _⟩ => rfl)

theorem idx_v15_v17 (p j : Fin 4096) : idx_main_v15 (idx_main_v17 (ix2 p j)) = ix1 j :=
  funext fun a => Fin.ext (by match a with | ⟨0, _⟩ => rfl)

/-! ### The stages at a point -/

/-- The row sums of the squares are the squared norms. -/
theorem v1_at (x0 : X0) (p : Fin 4096) : val_main_v1 (F := Ideal) x0 (ix1 p) = Cert.Spec.sq x0 p := by
  rw [val_main_v1_apply]
  simp only [val_main_cst_apply, val_main_v0_apply, idx_v1, Ideal.ofBits_def, Ideal.ofBits_zero_f32, zero_add, Ideal.mulf_def]
  rfl

/-- The contraction of the matrix with its transpose is the inner product of two rows. -/
theorem v8_at (x0 : X0) (p j : Fin 4096) : val_main_v8 (F := Ideal) x0 (ix2 p j) = Cert.Spec.dot x0 p j := by
  rw [val_main_v8_apply]
  simp only [val_main_v7_apply, lidx_v8, idx_v7_ridx_v8]
  rfl

/-- The square root of the clamped squared distance. -/
theorem v13_at (x0 : X0) (p j : Fin 4096) : val_main_v13 (F := Ideal) x0 (ix2 p j) = Cert.Spec.dist x0 p j := by
  rw [val_main_v13_apply, val_main_v12_apply, val_main_call0_v1_apply, val_main_call0_v0_apply, val_main_cst_1_apply,
    val_main_v11_apply, val_main_v6_apply, val_main_v4_apply, val_main_v2_apply, val_main_v5_apply, val_main_v3_apply,
    val_main_v10_apply, val_main_v9_apply, val_main_cst_0_apply, idx_v2_v4, idx_v3_v5, v1_at, v1_at, v8_at]
  simp only [Ideal.ofBits_def, Ideal.addf_def, Ideal.subf_def, Ideal.mulf_def, Ideal.maximumf_def, Ideal.hostUnary_sqrt_def]
  rfl

/-- The equality comparison of two words is the one-bit word 1 exactly when the words are equal. -/
theorem cmpi_eq_one_iff {w : Nat} (a b : BitVec w) : IntOp.cmpi .eq a b = 1#1 ↔ a = b := by
  show BitVec.ofBool (a == b) = 1#1 ↔ a = b
  by_cases h : a = b
  · subst h; rw [beq_self_eq_true]; exact ⟨fun _ => rfl, fun _ => rfl⟩
  · rw [show (a == b) = false from beq_eq_false_iff_ne.2 h]; exact ⟨fun e => absurd e (by decide), fun e => absurd e h⟩

/-- The label comparison at a point is the equality of the two rows' labels. -/
theorem v18_at (x1 : X1) (p j : Fin 4096) : val_main_v18 (F := Ideal) x1 (ix2 p j) = 1#1 ↔ Cert.Spec.same x1 p j := by
  rw [val_main_v18_apply, val_main_v16_apply, val_main_v14_apply, val_main_v17_apply, val_main_v15_apply, idx_v14_v16, idx_v15_v17]
  exact cmpi_eq_one_iff _ _

/-- The matrix masked for the row maximum. -/
theorem v19_at (x0 : X0) (x1 : X1) (p j : Fin 4096) :
    val_main_v19 (F := Ideal) x0 x1 (ix2 p j) = if Cert.Spec.same x1 p j then Cert.Spec.dist x0 p j else Cert.Spec.negInf := by
  rw [val_main_v19_apply, val_main_call1_v0_apply, val_main_cst_2_apply, v13_at]
  unfold Scalar.select
  exact if_congr (v18_at x1 p j) rfl rfl

/-- The matrix masked for the row minimum. -/
theorem v21_at (x0 : X0) (x1 : X1) (p j : Fin 4096) :
    val_main_v21 (F := Ideal) x0 x1 (ix2 p j) = if Cert.Spec.same x1 p j then Cert.Spec.posInf else Cert.Spec.dist x0 p j := by
  rw [val_main_v21_apply, val_main_call2_v0_apply, val_main_cst_4_apply, v13_at]
  unfold Scalar.select
  exact if_congr (v18_at x1 p j) rfl rfl

/-! ### The two row reductions -/

/-- Dropping the column axis of the square matrix leaves the vector of rows. -/
theorem red_cols : S4096x4096.Reduces [1] S4096 := by decide

/-- A row index with the column put back is the point of the matrix. -/
theorem lift_ix (p : Fin 4096) (k : Fin (S4096x4096.size 1)) :
    red_cols.lift (ix1 p) k = ix2 p (⟨k.val, k.isLt⟩ : Fin 4096) :=
  funext fun c => Fin.ext (by match c with | ⟨0, _⟩ => rfl | ⟨1, _⟩ => rfl)

/-- From −∞ the maximum over the columns, at row `p`, is the fold of `max` over that row's entries. -/
theorem rowMax_at (y : (⟨S4096x4096, .f32⟩ : BufTy).Contents (Elt Ideal)) (p : Fin 4096) :
    Host.reduce (FloatOps.maximumf (F := Ideal) (φ := .f32)) y (val_main_cst_3 (F := Ideal)) reducesTo_S4096x4096_S4096_d1 h_S_ (ix1 p)
      = (Finset.univ : Finset (Fin 4096)).fold max Cert.Spec.negInf (fun j => y (ix2 p j)) := by
  rw [Host.reduce_eq_fold_single (FloatOps.maximumf (F := Ideal) (φ := .f32)) y _ reducesTo_S4096x4096_S4096_d1 red_cols h_S_]
  have hf : (y ∘ red_cols.lift (ix1 p)) = fun k : Fin 4096 => y (ix2 p k) := funext fun k => congrArg y (lift_ix p k)
  exact congrArg (fun f => Finset.fold max (Ideal.ofBits .f32 0xFF800000#32) f (Finset.univ : Finset (Fin 4096))) hf

/-- From +∞ the minimum over the columns, at row `p`, is the fold of `min` over that row's entries. -/
theorem rowMin_at (y : (⟨S4096x4096, .f32⟩ : BufTy).Contents (Elt Ideal)) (p : Fin 4096) :
    Host.reduce (FloatOps.minimumf (F := Ideal) (φ := .f32)) y (val_main_cst_5 (F := Ideal)) reducesTo_S4096x4096_S4096_d1 h_S_ (ix1 p)
      = (Finset.univ : Finset (Fin 4096)).fold min Cert.Spec.posInf (fun j => y (ix2 p j)) := by
  rw [Host.reduce_eq_fold_single (FloatOps.minimumf (F := Ideal) (φ := .f32)) y _ reducesTo_S4096x4096_S4096_d1 red_cols h_S_]
  have hf : (y ∘ red_cols.lift (ix1 p)) = fun k : Fin 4096 => y (ix2 p k) := funext fun k => congrArg y (lift_ix p k)
  exact congrArg (fun f => Finset.fold min (Ideal.ofBits .f32 0x7F800000#32) f (Finset.univ : Finset (Fin 4096))) hf

/-- The row maximum of the masked distances is the hardest positive. -/
theorem ref_ap (x0 : (⟨S4096x2048, .f32⟩ : BufTy).Contents (Elt Ideal)) (x1 : (⟨S4096, .i32⟩ : BufTy).Contents (Elt Ideal)) (p : Fin 4096) :
    val_main_v20 (F := Ideal) x0 x1 (ix1 p) = Cert.Spec.ap x0 x1 p := by
  unfold val_main_v20
  rw [rowMax_at]
  unfold Cert.Spec.ap
  exact congrArg (fun f => Finset.fold max Cert.Spec.negInf f (Finset.univ : Finset (Fin 4096))) (funext fun j => v19_at x0 x1 p j)

/-- The row minimum of the masked distances is the hardest negative. -/
theorem ref_an (x0 : (⟨S4096x2048, .f32⟩ : BufTy).Contents (Elt Ideal)) (x1 : (⟨S4096, .i32⟩ : BufTy).Contents (Elt Ideal)) (p : Fin 4096) :
    val_main_v22 (F := Ideal) x0 x1 (ix1 p) = Cert.Spec.an x0 x1 p := by
  unfold val_main_v22
  rw [rowMin_at]
  unfold Cert.Spec.an
  exact congrArg (fun f => Finset.fold min Cert.Spec.posInf f (Finset.univ : Finset (Fin 4096))) (funext fun j => v21_at x0 x1 p j)

theorem ref_ap_vec (x0 : (⟨S4096x2048, .f32⟩ : BufTy).Contents (Elt Ideal)) (x1 : (⟨S4096, .i32⟩ : BufTy).Contents (Elt Ideal)) :
    val_main_v20 (F := Ideal) x0 x1 = Cert.Spec.apVec x0 x1 := by
  funext i
  obtain ⟨p, rfl⟩ : ∃ p : Fin 4096, i = ix1 p := ⟨i 0, eq_ix1 i⟩
  rw [ref_ap, Cert.Spec.apVec_apply]

theorem ref_an_vec (x0 : (⟨S4096x2048, .f32⟩ : BufTy).Contents (Elt Ideal)) (x1 : (⟨S4096, .i32⟩ : BufTy).Contents (Elt Ideal)) :
    val_main_v22 (F := Ideal) x0 x1 = Cert.Spec.anVec x0 x1 := by
  funext i
  obtain ⟨p, rfl⟩ : ∃ p : Fin 4096, i = ix1 p := ⟨i 0, eq_ix1 i⟩
  rw [ref_an, Cert.Spec.anVec_apply]

/-- The first result is the shared tail's loss of the two vectors. -/
theorem ref_loss (x0 : (⟨S4096x2048, .f32⟩ : BufTy).Contents (Elt Ideal)) (x1 : (⟨S4096, .i32⟩ : BufTy).Contents (Elt Ideal)) :
    val_main_v29 (F := Ideal) x0 x1
      = Cert.Tail.loss bcast_S_S4096 reducesTo_S4096_S_d0 h_S_ (val_main_v20 (F := Ideal) x0 x1) (val_main_v22 (F := Ideal) x0 x1) := by
  unfold val_main_v29 val_main_v28 val_main_v27 val_main_v26 val_main_v25 val_main_v24 val_main_v23
    val_main_cst_9 val_main_cst_8 val_main_cst_7 val_main_cst_6 Cert.Tail.loss
  generalize val_main_v20 (F := Ideal) x0 x1 = a
  generalize val_main_v22 (F := Ideal) x0 x1 = b
  rfl

/-- The second result is the shared tail's precision of the two vectors. -/
theorem ref_prec (x0 : (⟨S4096x2048, .f32⟩ : BufTy).Contents (Elt Ideal)) (x1 : (⟨S4096, .i32⟩ : BufTy).Contents (Elt Ideal)) :
    val_main_v33 (F := Ideal) x0 x1
      = Cert.Tail.prec reducesTo_S4096_S_d0 h_S_ (val_main_v20 (F := Ideal) x0 x1) (val_main_v22 (F := Ideal) x0 x1) := by
  unfold val_main_v33 val_main_v32 val_main_v31 val_main_v30 val_main_cst_11 val_main_cst_10 Cert.Tail.prec
  generalize val_main_v20 (F := Ideal) x0 x1 = a
  generalize val_main_v22 (F := Ideal) x0 x1 = b
  rfl

/-- The reference's run with its results named: the shared tail of the specification's two vectors of the arguments. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29)
          = Cert.Tail.loss bcast_S_S4096 reducesTo_S4096_S_d0 h_S_
              (Cert.Spec.apVec (m ((c.tc : Thread nD τ).loc main_arg0)) (m ((c.tc : Thread nD τ).loc main_arg1)))
              (Cert.Spec.anVec (m ((c.tc : Thread nD τ).loc main_arg0)) (m ((c.tc : Thread nD τ).loc main_arg1)))
      ∧ r.2.mem ((c.tc : Thread nD τ).loc main_v33)
          = Cert.Tail.prec reducesTo_S4096_S_d0 h_S_
              (Cert.Spec.apVec (m ((c.tc : Thread nD τ).loc main_arg0)) (m ((c.tc : Thread nD τ).loc main_arg1)))
              (Cert.Spec.anVec (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono (fun _ h c =>
    ⟨by rw [(h c).1, val_main_v29_eq, ref_loss, ref_ap_vec, ref_an_vec],
     by rw [(h c).2.1, val_main_v33_eq, ref_prec, ref_ap_vec, ref_an_vec],
     (h c).2.2.1, (h c).2.2.2⟩)
    (Cert.ReferenceIdeal.Value.run (F := Ideal) m ρ)

end Cert.ReferenceIdeal.RefValue

end
-- ==== Proof.lean ====
/-
  The certificate of the triplet loss kernel against its reference, at the extended reals.

  For a matrix of 4096 rows and a label per row, the kernel computes per row the largest clamped distance
  `sqrt (max ε (‖xᵢ‖² + ‖xⱼ‖² − 2·⟨xᵢ, xⱼ⟩))` to a row of the same label (the hardest positive) and the smallest to a row of
  another label (the hardest negative), tile by tile: per row tile two accumulators fold the lane maximum / minimum of
  each of the eight column tiles, from −∞ / +∞, and are written out after the last. The reference builds the whole masked
  matrix and reduces its rows. Both programs then apply the same host operations to the two vectors: the loss
  `mean (max (ap − an + 0.3) 0)` and the precision `mean [an > ap]`.
  Proof/Spec.lean states the two vectors; Proof/Tail.lean the shared tail as one function of them. Proof/KI/ (the kernel
  program at the extended reals; Proof/K/ the same text at the word level) carries the kernel's run: Launch.lean that
  every execution terminates with the buffers the operations after the region compute, Exit.lean that the arguments are
  unchanged, Value.lean that the two result arrays are the specification's vectors, TailVals.lean the tail's two results.
  Proof/RefValue.lean is the reference's run read at the specification. Assembled here are the five claims.
-/
import proofs.«178719_j88089779241009_1_alg».proof.Defs
import proofs.«178719_j88089779241009_1_alg».proof.Proof.Gen.Kernel
import proofs.«178719_j88089779241009_1_alg».proof.Proof.Gen.KernelIdeal
import proofs.«178719_j88089779241009_1_alg».proof.Proof.Gen.ReferenceIdeal
import proofs.«178719_j88089779241009_1_alg».proof.Proof.Gen.Pre_finite_inputs
import proofs.«178719_j88089779241009_1_alg».proof.Proof.KI.Launch
import proofs.«178719_j88089779241009_1_alg».proof.Proof.K.Launch
import proofs.«178719_j88089779241009_1_alg».proof.Proof.KI.Value
import proofs.«178719_j88089779241009_1_alg».proof.Proof.KI.TailVals
import proofs.«178719_j88089779241009_1_alg».proof.Proof.RefValue
import Idealize.ShloMosaic.Lib.Pipeline.Frame
import Idealize.ShloMosaic.Lib.StableHlo.Run

noncomputable section

namespace Cert.Proof

open Idealize.ShloMosaic Idealize.ShloMosaic.TcCoe Idealize.SL.Sem

/-- A TensorCore reference that is not scoped is among the core's unscoped buffers. -/
theorem mem_ucRefs {τ : Topo} {sig : RefSig} (b : Ref sig .tc) (h : (Proc.devRef (τ := τ) .tc b).isScoped = false) :
    Proc.devRef (τ := τ) .tc b ∈ Pipeline.ucRefs τ sig :=
  Finset.mem_filter.mpr ⟨StableHlo.devRef_mem_tcRefs b, fun h' => Bool.false_ne_true (h.symm.trans h')⟩

/-! ## The three programs run and leave their arguments unchanged -/

theorem frame_k : Cert.frame_Kernel := fun m ρ _ =>
  (θ_run (Cert.Kernel.defs (F := Bits)) _ _).mono (fun r h c =>
    ⟨(h c _ (mem_ucRefs Cert.Kernel.main_arg0 rfl)).trans (Cert.Kernel.Hand.tail_arg0 m c),
     (h c _ (mem_ucRefs Cert.Kernel.main_arg1 rfl)).trans (Cert.Kernel.Hand.tail_arg1 m c)⟩)
    (Cert.Kernel.Hand.run_main (F := Bits) m ρ)

theorem frame_ki : Cert.frame_KernelIdeal := fun m ρ _ =>
  (θ_run (Cert.KernelIdeal.defs (F := Ideal)) _ _).mono (fun r h c =>
    ⟨(h c _ (mem_ucRefs Cert.KernelIdeal.main_arg0 rfl)).trans (Cert.KernelIdeal.Hand.tail_arg0 m c),
     (h c _ (mem_ucRefs Cert.KernelIdeal.main_arg1 rfl)).trans (Cert.KernelIdeal.Hand.tail_arg1 m c)⟩)
    (Cert.KernelIdeal.Hand.run_main (F := Ideal) m ρ)

theorem frame_ri : Cert.frame_ReferenceIdeal := fun m ρ _ =>
  (θ_run (Cert.ReferenceIdeal.defs (F := Ideal)) _ _).mono (fun _ h c => (h c).2.2)
    (Cert.ReferenceIdeal.RefValue.ref_run m ρ)

/-! ## At the extended reals the two programs end with equal results -/

/-- The loss and the precision of the specification's two vectors of a matrix and its labels: what both programs'
    results are. -/
def lossOf (x : FVec Ideal Cert.Spec.SX .f32) (t : IVec Cert.Spec.ST 32) : FVec Ideal Cert.Tail.S_ .f32 :=
  Cert.Tail.loss Cert.KernelIdeal.Gen.bcast_S_S4096 Cert.KernelIdeal.Gen.reducesTo_S4096_S_d0 Cert.KernelIdeal.Gen.h_S_
    (Cert.Spec.apVec x t) (Cert.Spec.anVec x t)
def precOf (x : FVec Ideal Cert.Spec.SX .f32) (t : IVec Cert.Spec.ST 32) : FVec Ideal Cert.Tail.S_ .f32 :=
  Cert.Tail.prec Cert.KernelIdeal.Gen.reducesTo_S4096_S_d0 Cert.KernelIdeal.Gen.h_S_
    (Cert.Spec.apVec x t) (Cert.Spec.anVec x t)

/-- The kernel program's two results are the tail of the two result arrays, which are the specification's vectors. -/
theorem kernel_loss (m : (ℓ : Loc Cert.KernelIdeal.nD Cert.KernelIdeal.τ Cert.KernelIdeal.sig) → Buf (Elt Ideal) ℓ) (c : Dev Cert.KernelIdeal.nD) :
    StableHlo.after Cert.KernelIdeal.Gen.hostOps1 (Cert.KernelIdeal.Hand.V1 m c) (Proc.devRef .tc Cert.KernelIdeal.main_v16)
      = lossOf (Cert.KernelIdeal.Hand.xin m c) (Cert.KernelIdeal.Hand.tin m c) :=
  (Cert.KernelIdeal.Hand.tail_loss m c).trans
    (congrArg₂ (Cert.Tail.loss _ _ _) (Cert.KernelIdeal.Hand.flat6 m c) (Cert.KernelIdeal.Hand.flat7 m c))
theorem kernel_prec (m : (ℓ : Loc Cert.KernelIdeal.nD Cert.KernelIdeal.τ Cert.KernelIdeal.sig) → Buf (Elt Ideal) ℓ) (c : Dev Cert.KernelIdeal.nD) :
    StableHlo.after Cert.KernelIdeal.Gen.hostOps1 (Cert.KernelIdeal.Hand.V1 m c) (Proc.devRef .tc Cert.KernelIdeal.main_v20)
      = precOf (Cert.KernelIdeal.Hand.xin m c) (Cert.KernelIdeal.Hand.tin m c) :=
  (Cert.KernelIdeal.Hand.tail_prec m c).trans
    (congrArg₂ (Cert.Tail.prec _ _) (Cert.KernelIdeal.Hand.flat6 m c) (Cert.KernelIdeal.Hand.flat7 m c))

theorem algebraic : Cert.algebraic_KernelIdeal_ReferenceIdeal := by
  intro m ρ m' ρ' _ hagree
  refine ⟨fun c => lossOf (Cert.KernelIdeal.Hand.xin m c) (Cert.KernelIdeal.Hand.tin m c),
    fun c => precOf (Cert.KernelIdeal.Hand.xin m c) (Cert.KernelIdeal.Hand.tin m c), ?_, ?_⟩
  · exact (θ_run (Cert.KernelIdeal.defs (F := Ideal)) _ _).mono (fun r h c =>
      ⟨(h c _ (mem_ucRefs Cert.KernelIdeal.main_v16 rfl)).trans (kernel_loss m c),
       (h c _ (mem_ucRefs Cert.KernelIdeal.main_v20 rfl)).trans (kernel_prec m c),
       (h c _ (mem_ucRefs Cert.KernelIdeal.main_arg0 rfl)).trans (Cert.KernelIdeal.Hand.tail_arg0 m c),
       (h c _ (mem_ucRefs Cert.KernelIdeal.main_arg1 rfl)).trans (Cert.KernelIdeal.Hand.tail_arg1 m c)⟩)
      (Cert.KernelIdeal.Hand.run_main (F := Ideal) m ρ)
  · refine (θ_run (Cert.ReferenceIdeal.defs (F := Ideal)) _ _).mono (fun r h c => ⟨(h c).1.trans ?_, (h c).2.1.trans ?_, (h c).2.2.1, (h c).2.2.2⟩)
      (Cert.ReferenceIdeal.RefValue.ref_run m' ρ')
    · rw [(hagree c).1, (hagree c).2]; rfl
    · rw [(hagree c).1, (hagree c).2]; rfl

/-! ## The certificate -/

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
